-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S2x640000 : Shape := ⟨2, ![2, 640000]⟩
abbrev S640000x64 : Shape := ⟨2, ![640000, 64]⟩
abbrev S101x128 : Shape := ⟨2, ![101, 128]⟩
abbrev S128x128 : Shape := ⟨2, ![128, 128]⟩
abbrev S128 : Shape := ⟨1, ![128]⟩
abbrev S128x64 : Shape := ⟨2, ![128, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S_ : Shape := ⟨0, ![]⟩

class Facts : Prop where
  bcast_S_S640000x64 : S_.BroadcastsInDim S640000x64 (![] : Fin 0 → Fin S640000x64.rank)
  reducesTo_S640000x64_S_d0_1 : S640000x64.ReducesTo [0, 1] S_
  h_S_ : 0 < S_.numel
  bcast_S_S101x128 : S_.BroadcastsInDim S101x128 (![] : Fin 0 → Fin S101x128.rank)
  reducesTo_S101x128_S_d0_1 : S101x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S4x256 : S_.BroadcastsInDim S4x256 (![] : Fin 0 → Fin S4x256.rank)
  reducesTo_S4x256_S_d0_1 : S4x256.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg10 : FVec F S256x128 .f32) (main_arg11 : FVec F S256 .f32) (main_arg12 : FVec F S4x256 .f32) (main_arg13 : FVec F S4 .f32) (main_v33 : IVec S_ 1) : IVec S_ 1 :=
  let main_v34 : FVec F S256x128 .f32 := Host.absf main_arg10
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256 .f32 := Host.absf main_arg11
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S4x256 .f32 := Host.absf main_arg12
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  let main_v49 : FVec F S4 .f32 := Host.absf main_arg13
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg7 : FVec F S128x64 .f32) (main_arg8 : FVec F S128 .f32) (main_arg9 : FVec F S128x128 .f32) (main_arg10 : FVec F S256x128 .f32) (main_arg11 : FVec F S256 .f32) (main_arg12 : FVec F S4x256 .f32) (main_arg13 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_v33

def fn {F : FTy → Type} [FloatOps F] (main_arg0 : IVec S20000 32) (main_arg1 : IVec S2x640000 32) (main_arg2 : FVec F S640000x64 .f32) (main_arg3 : IVec S20000 32) (main_arg4 : FVec F S101x128 .f32) (main_arg5 : FVec F S128x128 .f32) (main_arg6 : FVec F S128 .f32) (main_arg7 : FVec F S128x64 .f32) (main_arg8 : FVec F S128 .f32) (main_arg9 : FVec F S128x128 .f32) (main_arg10 : FVec F S256x128 .f32) (main_arg11 : FVec F S256 .f32) (main_arg12 : FVec F S4x256 .f32) (main_arg13 : FVec F S4 .f32) : IVec S_ 1 :=
  let main_v0 : FVec F S640000x64 .f32 := Host.absf main_arg2
  let main_cst : FVec F S_ .f32 := constant S_ .f32 0x7F800000#32
  let main_v1 : FVec F S640000x64 .f32 := broadcastInDim S640000x64 ![] bcast_S_S640000x64 main_cst
  let main_v2 : IVec S640000x64 1 := cmpf .olt main_v0 main_v1
  let main_c : IVec S_ 1 := constantI S_ 1 1#1
  let main_v3 : IVec S_ 1 := (fun x v => Host.reduce IntOp.andi x v reducesTo_S640000x64_S_d0_1 h_S_) main_v2 main_c
  let main_v4 : FVec F S101x128 .f32 := Host.absf main_arg4
  let main_cst_0 : FVec F S_ .f32 := constant S_ .f32 0x7F800000#32
  let main_v5 : FVec F S101x128 .f32 := broadcastInDim S101x128 ![] bcast_S_S101x128 main_cst_0
  let main_v6 : IVec S101x128 1 := cmpf .olt main_v4 main_v5
  let main_c_1 : IVec S_ 1 := constantI S_ 1 1#1
  let main_v7 : IVec S_ 1 := (fun x v => Host.reduce IntOp.andi x v reducesTo_S101x128_S_d0_1 h_S_) main_v6 main_c_1
  let main_v8 : IVec S_ 1 := andi main_v3 main_v7
  let main_v9 : FVec F S128x128 .f32 := Host.absf main_arg5
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_v13 main_v16
-- ==== Kernel.lean ====
abbrev S20000 : Shape := ⟨1, ![20000]⟩
abbrev S2x640000 : Shape := ⟨2, ![2, 640000]⟩
abbrev S640000x64 : Shape := ⟨2, ![640000, 64]⟩
abbrev S101x128 : Shape := ⟨2, ![101, 128]⟩
abbrev S128x128 : Shape := ⟨2, ![128, 128]⟩
abbrev S128 : Shape := ⟨1, ![128]⟩
abbrev S128x64 : Shape := ⟨2, ![128, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S_ : Shape := ⟨0, ![]⟩
abbrev S20000x1 : Shape := ⟨2, ![20000, 1]⟩
abbrev S20000x128 : Shape := ⟨2, ![20000, 128]⟩
abbrev S1x640000 : Shape := ⟨2, ![1, 640000]⟩
abbrev S640000 : Shape := ⟨1, ![640000]⟩
abbrev S1x128 : Shape := ⟨2, ![1, 128]⟩
abbrev S640000x128 : Shape := ⟨2, ![640000, 128]⟩
abbrev S16000x64 : Shape := ⟨2, ![16000, 64]⟩
abbrev S16000x128 : Shape := ⟨2, ![16000, 128]⟩
abbrev S64x128 : Shape := ⟨2, ![64, 128]⟩
abbrev S640000x1 : Shape := ⟨2, ![640000, 1]⟩
abbrev S8000x128 : Shape := ⟨2, ![8000, 128]⟩
abbrev S1x256 : Shape := ⟨2, ![1, 256]⟩
abbrev S1x4 : Shape := ⟨2, ![1, 4]⟩
abbrev S20000x4 : Shape := ⟨2, ![20000, 4]⟩
abbrev S4000x128 : Shape := ⟨2, ![4000, 128]⟩
abbrev S4000x4 : Shape := ⟨2, ![4000, 4]⟩
abbrev S128x256 : Shape := ⟨2, ![128, 256]⟩
abbrev S4000x256 : Shape := ⟨2, ![4000, 256]⟩
abbrev S256x4 : Shape := ⟨2, ![256, 4]⟩

abbrev nBuf : Space → Nat
  | .hbm => 84
  | .vmem => 41
  | .smem => 0
  | _ => 0

abbrev bufTy : (tb : Table) → Fin (tcTables nBuf tb) → BufTy
  | .hbm, ⟨0, _⟩ => ⟨S20000, .i32⟩
  | .hbm, ⟨1, _⟩ => ⟨S2x640000, .i32⟩
  | .hbm, ⟨2, _⟩ => ⟨S640000x64, .f32⟩
  | .hbm, ⟨3, _⟩ => ⟨S20000, .i32⟩
  | .hbm, ⟨4, _⟩ => ⟨S101x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S256, .f32⟩
  | .hbm, ⟨12, _⟩ => ⟨S4x256, .f32⟩
  | .hbm, ⟨13, _⟩ => ⟨S4, .f32⟩
  | .hbm, ⟨14, _⟩ => ⟨S_, .i32⟩
  | .hbm, ⟨15, _⟩ => ⟨S20000, .i32⟩
  | .hbm, ⟨16, _⟩ => ⟨S20000, .i1⟩
  | .hbm, ⟨17, _⟩ => ⟨S_, .i32⟩
  | .hbm, ⟨18, _⟩ => ⟨S20000, .i32⟩
  | .hbm, ⟨19, _⟩ => ⟨S20000, .i32⟩
  | .hbm, ⟨20, _⟩ => ⟨S20000, .i32⟩
  | .hbm, ⟨21, _⟩ => ⟨S20000x1, .i32⟩
  | .hbm, ⟨22, _⟩ => ⟨S20000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S1x128, .f32⟩
  | .hbm, ⟨28, _⟩ => ⟨S640000x128, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S640000x1, .i32⟩
  | .hbm, ⟨37, _⟩ => ⟨S640000x128, .f32⟩
  | .hbm, ⟨38, _⟩ => ⟨S1x128, .f32⟩
  | .hbm, ⟨39, _⟩ => ⟨S640000x128, .f32⟩
  | .hbm, ⟨40, _⟩ => ⟨S_, .f32⟩
  | .hbm, ⟨41, _⟩ => ⟨S20000x128, .f32⟩
  | .hbm, ⟨42, _⟩ => ⟨S640000x1, .i32⟩
  | .hbm, ⟨43, _⟩ => ⟨S20000x128, .f32⟩
  | .hbm, ⟨44, _⟩ => ⟨S20000x128, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S1x128, .f32⟩
  | .hbm, ⟨55, _⟩ => ⟨S640000x128, .f32⟩
  | .hbm, ⟨56, _⟩ => ⟨S_, .f32⟩
  | .hbm, ⟨57, _⟩ => ⟨S20000x128, .f32⟩
  | .hbm, ⟨58, _⟩ => ⟨S640000x1, .i32⟩
  | .hbm, ⟨59, _⟩ => ⟨S20000x128, .f32⟩
  | .hbm, ⟨60, _⟩ => ⟨S20000x128, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S1x128, .f32⟩
  | .hbm, ⟨71, _⟩ => ⟨S640000x128, .f32⟩
  | .hbm, ⟨72, _⟩ => ⟨S_, .f32⟩
  | .hbm, ⟨73, _⟩ => ⟨S20000x128, .f32⟩
  | .hbm, ⟨74, _⟩ => ⟨S640000x1, .i32⟩
  | .hbm, ⟨75, _⟩ => ⟨S20000x128, .f32⟩
  | .hbm, ⟨76, _⟩ => ⟨S20000x128, .f32⟩
  | .hbm, ⟨77, _⟩ => ⟨S1x256, .f32⟩
  | .hbm, ⟨78, _⟩ => ⟨S1x4, .f32⟩
  | .hbm, ⟨79, _⟩ => ⟨S20000x4, .f32⟩
  | .hbm, ⟨80, _⟩ => ⟨S_, .f32⟩
  | .hbm, ⟨81, _⟩ => ⟨S256x4, .f32⟩
  | .hbm, ⟨82, _⟩ => ⟨S20000x1, .i32⟩
  | .hbm, ⟨83, _⟩ => ⟨S256x4, .f32⟩
  | .local _ .vmem, ⟨0, _⟩ => ⟨S16000x64, .f32⟩
  | .local _ .vmem, ⟨1, _⟩ => ⟨S16000x64, .f32⟩
  | .local _ .vmem, ⟨2, _⟩ => ⟨S128x64, .f32⟩
  | .local _ .vmem, ⟨3, _⟩ => ⟨S1x128, .f32⟩
  | .local _ .vmem, ⟨4, _⟩ => ⟨S16000x128, .f32⟩
  | .local _ .vmem, ⟨5, _⟩ => ⟨S16000x128, .f32⟩
  | .local _ .vmem, ⟨6, _⟩ => ⟨S8000x128, .f32⟩
  | .local _ .vmem, ⟨7, _⟩ => ⟨S8000x128, .f32⟩
  | .local _ .vmem, ⟨8, _⟩ => ⟨S8000x128, .f32⟩
  | .local _ .vmem, ⟨9, _⟩ => ⟨S8000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S8000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S8000x128, .f32⟩
  | .local _ .vmem, ⟨23, _⟩ => ⟨S8000x128, .f32⟩
  | .local _ .vmem, ⟨24, _⟩ => ⟨S8000x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S8000x128, .f32⟩
  | .local _ .vmem, ⟨32, _⟩ => ⟨S8000x128, .f32⟩
  | .local _ .vmem, ⟨33, _⟩ => ⟨S4000x128, .f32⟩
  | .local _ .vmem, ⟨34, _⟩ => ⟨S4000x128, .f32⟩
  | .local _ .vmem, ⟨35, _⟩ => ⟨S256x128, .f32⟩
  | .local _ .vmem, ⟨36, _⟩ => ⟨S1x256, .f32⟩
  | .local _ .vmem, ⟨37, _⟩ => ⟨S4x256, .f32⟩
  | .local _ .vmem, ⟨38, _⟩ => ⟨S1x4, .f32⟩
  | .local _ .vmem, ⟨39, _⟩ => ⟨S4000x4, .f32⟩
  | .local _ .vmem, ⟨40, _⟩ => ⟨S4000x4, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_3 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_8 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x4 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x4 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S16000x64_S16000x64_0_0 : ∀ a, (![0, 0] : Fin 2 → Nat) a + S16000x64.size a ≤ S16000x64.size a
  h_S16000x64 : 0 < S16000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  bcast_S_S640000 : S_.BroadcastsInDim S640000 (![] : Fin 0 → Fin S640000.rank)
  bcast_S640000_S640000x1_0 : S640000.BroadcastsInDim S640000x1 (![0] : Fin 1 → Fin S640000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S8000x128 : S1x128.Broadcasts S8000x128
  bcast_S_S20000x128 : S_.BroadcastsInDim S20000x128 (![] : Fin 0 → Fin S20000x128.rank)
  shapeCasts_S256_S1x256 : S256.ShapeCasts S1x256
  shapeCasts_S4_S1x4 : S4.ShapeCasts S1x4
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4x256_S4x256_0_0 : ∀ a, (![0, 0] : Fin 2 → Nat) a + S4x256.size a ≤ S4x256.size a
  h_S4x256 : 0 < S4x256.numel
  transposes_S4x256_p1_0_S256x4 : S4x256.Transposes [1, 0] S256x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S4000x4_S4000x4_0_0 : ∀ a, (![0, 0] : Fin 2 → Nat) a + S4000x4.size a ≤ S4000x4.size a
  h_S4000x4 : 0 < S4000x4.numel
  bcast_S_S256x4 : S_.BroadcastsInDim S256x4 (![] : Fin 0 → Fin S256x4.rank)
  gather_S101x128_S20000x1_S20000x128_1_0_n_n_0_1_1128_wf : GatherDims.WF S101x128 S20000x1 S20000x128 [1] [0] [] [0] [] 1 ![1, 128]
  dot_S16000x64_S64x128_S16000x128_1_0_0_1_n_n_wf : DotDims.WF S16000x64 S64x128 S16000x128 [1] [0] [0] [1] [] []
  gather_S20000x128_S640000x1_S640000x128_1_0_n_n_0_1_1128_wf : GatherDims.WF S20000x128 S640000x1 S640000x128 [1] [0] [] [0] [] 1 ![1, 128]
  dot_S8000x128_S128x128_S8000x128_1_0_0_1_n_n_wf : DotDims.WF S8000x128 S128x128 S8000x128 [1] [0] [0] [1] [] []
  scatter_S20000x128_S640000x1_S640000x128_1_0_0_1_wf : ScatterDims.WF S20000x128 S640000x1 S640000x128 [1] [0] [0] 1
  dot_S4000x128_S128x256_S4000x256_1_0_0_1_n_n_wf : DotDims.WF S4000x128 S128x256 S4000x256 [1] [0] [0] [1] [] []
  dot_S4000x256_S256x4_S4000x4_1_0_0_1_n_n_wf : DotDims.WF S4000x256 S256x4 S4000x4 [1] [0] [0] [1] [] []
  scatter_S256x4_S20000x1_S20000x4_1_0_0_1_wf : ScatterDims.WF S256x4 S20000x1 S20000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S640000x64.size a
  hwx0_0 : ∀ i : grid0.Coords, EltTy.bits .f32 = 32 ∨ (Rect.block (s := S640000x64) S16000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S640000x128.size a
  hwx0_3 : ∀ i : grid0.Coords, EltTy.bits .f32 = 32 ∨ (Rect.block (s := S640000x128) S16000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S640000x128.size a
  hwx1_5 : ∀ i : grid1.Coords, EltTy.bits .f32 = 32 ∨ (Rect.block (s := S640000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S640000x128.size a
  hwx2_0 : ∀ i : grid2.Coords, EltTy.bits .f32 = 32 ∨ (Rect.block (s := S640000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S640000x128.size a
  hwx2_1 : ∀ i : grid2.Coords, EltTy.bits .f32 = 32 ∨ (Rect.block (s := S640000x128) S8000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x128.size a ≤ S640000x128.size a
  hwx2_5 : ∀ i : grid2.Coords, EltTy.bits .f32 = 32 ∨ (Rect.block (s := S640000x128) S8000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S640000x128.size a
  hwx3_0 : ∀ i : grid3.Coords, EltTy.bits .f32 = 32 ∨ (Rect.block (s := S640000x128) S8000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S640000x128.size a
  hwx3_1 : ∀ i : grid3.Coords, EltTy.bits .f32 = 32 ∨ (Rect.block (s := S640000x128) S8000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x128.size a ≤ S640000x128.size a
  hwx3_5 : ∀ i : grid3.Coords, EltTy.bits .f32 = 32 ∨ (Rect.block (s := S640000x128) S8000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S20000x128.size a
  hwx4_0 : ∀ i : grid4.Coords, EltTy.bits .f32 = 32 ∨ (Rect.block (s := S20000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4x256.size a ≤ S4x256.size a
  hwx4_3 : ∀ i : grid4.Coords, EltTy.bits .f32 = 32 ∨ (Rect.block (s := S4x256) S4x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x4.size a ≤ S1x4.size a
  hwx4_4 : ∀ i : grid4.Coords, EltTy.bits .f32 = 32 ∨ (Rect.block (s := S1x4) S1x4.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x4.size a ≤ S20000x4.size a
  hwx4_5 : ∀ i : grid4.Coords, EltTy.bits .f32 = 32 ∨ (Rect.block (s := S20000x4) S4000x4.size (cc4_transform_5 i) (hinb4_5 i)).WholeWords (EltTy.packing .f32)

variable [Facts₀]

def gather_S101x128_S20000x1_S20000x128_1_0_n_n_0_1_1128 : GatherDims S101x128 S20000x1 S20000x128 where
  offsetDims := [1]
  collapsedSliceDims := [0]
  operandBatchingDims := []
  startIndicesBatchingDims := []
  startIndexMap := [0]
  indexVectorDim := 1
  sliceSizes := ![1, 128]
  wf := gather_S101x128_S20000x1_S20000x128_1_0_n_n_0_1_1128_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x4_S4000x4_1_0_0_1_n_n : DotDims S4000x256 S256x4 S4000x4 where
  lhsContracting := [1]
  rhsContracting := [0]
  lhsNonContracting := [0]
  rhsNonContracting := [1]
  lhsBatch := []
  rhsBatch := []
  wf := dot_S4000x256_S256x4_S4000x4_1_0_0_1_n_n_wf
def scatter_S256x4_S20000x1_S20000x4_1_0_0_1 : ScatterDims S256x4 S20000x1 S20000x4 where
  updateWindowDims := [1]
  insertedWindowDims := [0]
  scatterDimsToOperandDims := [0]
  indexVectorDim := 1
  wf := scatter_S256x4_S20000x1_S20000x4_1_0_0_1_wf

abbrev win0_0 : Pipeline.Window sig grid0 :=
  Pipeline.Window.ofSpec (Memref.whole main_arg2) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S8000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg9) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S8000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v51) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v52) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S4x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v53) S1x4.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v54) S4000x4.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S20000 : Shape := ⟨1, ![20000]⟩
abbrev S2x640000 : Shape := ⟨2, ![2, 640000]⟩
abbrev S640000x64 : Shape := ⟨2, ![640000, 64]⟩
abbrev S101x128 : Shape := ⟨2, ![101, 128]⟩
abbrev S128x128 : Shape := ⟨2, ![128, 128]⟩
abbrev S128 : Shape := ⟨1, ![128]⟩
abbrev S128x64 : Shape := ⟨2, ![128, 64]⟩
abbrev S256x128 : Shape := ⟨2, ![256, 128]⟩
abbrev S256 : Shape := ⟨1, ![256]⟩
abbrev S4x256 : Shape := ⟨2, ![4, 256]⟩
abbrev S4 : Shape := ⟨1, ![4]⟩
abbrev S_ : Shape := ⟨0, ![]⟩
abbrev S20000x1 : Shape := ⟨2, ![20000, 1]⟩
abbrev S20000x128 : Shape := ⟨2, ![20000, 128]⟩
abbrev S1x640000 : Shape := ⟨2, ![1, 640000]⟩
abbrev S640000 : Shape := ⟨1, ![640000]⟩
abbrev S64x128 : Shape := ⟨2, ![64, 128]⟩
abbrev S640000x128 : Shape := ⟨2, ![640000, 128]⟩
abbrev S1x128 : Shape := ⟨2, ![1, 128]⟩
abbrev S640000x1 : Shape := ⟨2, ![640000, 1]⟩
abbrev S128x256 : Shape := ⟨2, ![128, 256]⟩
abbrev S20000x256 : Shape := ⟨2, ![20000, 256]⟩
abbrev S1x256 : Shape := ⟨2, ![1, 256]⟩
abbrev S256x4 : Shape := ⟨2, ![256, 4]⟩
abbrev S20000x4 : Shape := ⟨2, ![20000, 4]⟩
abbrev S1x4 : Shape := ⟨2, ![1, 4]⟩

abbrev nBuf : Space → Nat
  | .hbm => 116
  | .vmem => 0
  | .smem => 0
  | _ => 0

abbrev bufTy : (tb : Table) → Fin (tcTables nBuf tb) → BufTy
  | .hbm, ⟨0, _⟩ => ⟨S20000, .i32⟩
  | .hbm, ⟨1, _⟩ => ⟨S2x640000, .i32⟩
  | .hbm, ⟨2, _⟩ => ⟨S640000x64, .f32⟩
  | .hbm, ⟨3, _⟩ => ⟨S20000, .i32⟩
  | .hbm, ⟨4, _⟩ => ⟨S101x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128, .f32⟩
  | .hbm, ⟨9, _⟩ => ⟨S128x128, .f32⟩
  | .hbm, ⟨10, _⟩ => ⟨S256x128, .f32⟩
  | .hbm, ⟨11, _⟩ => ⟨S256, .f32⟩
  | .hbm, ⟨12, _⟩ => ⟨S4x256, .f32⟩
  | .hbm, ⟨13, _⟩ => ⟨S4, .f32⟩
  | .hbm, ⟨14, _⟩ => ⟨S_, .i32⟩
  | .hbm, ⟨15, _⟩ => ⟨S20000, .i32⟩
  | .hbm, ⟨16, _⟩ => ⟨S20000, .i1⟩
  | .hbm, ⟨17, _⟩ => ⟨S_, .i32⟩
  | .hbm, ⟨18, _⟩ => ⟨S20000, .i32⟩
  | .hbm, ⟨19, _⟩ => ⟨S20000, .i32⟩
  | .hbm, ⟨20, _⟩ => ⟨S20000, .i32⟩
  | .hbm, ⟨21, _⟩ => ⟨S20000x1, .i32⟩
  | .hbm, ⟨22, _⟩ => ⟨S20000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S64x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x128, .f32⟩
  | .hbm, ⟨41, _⟩ => ⟨S128x128, .f32⟩
  | .hbm, ⟨42, _⟩ => ⟨S640000x128, .f32⟩
  | .hbm, ⟨43, _⟩ => ⟨S1x128, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S128x128, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S20000x128, .f32⟩
  | .hbm, ⟨52, _⟩ => ⟨S640000x1, .i32⟩
  | .hbm, ⟨53, _⟩ => ⟨S20000x128, .f32⟩
  | .hbm, ⟨54, _⟩ => ⟨S20000x128, .f32⟩
  | .hbm, ⟨55, _⟩ => ⟨S_, .i32⟩
  | .hbm, ⟨56, _⟩ => ⟨S640000, .i32⟩
  | .hbm, ⟨57, _⟩ => ⟨S640000, .i1⟩
  | .hbm, ⟨58, _⟩ => ⟨S_, .i32⟩
  | .hbm, ⟨59, _⟩ => ⟨S640000, .i32⟩
  | .hbm, ⟨60, _⟩ => ⟨S640000, .i32⟩
  | .hbm, ⟨61, _⟩ => ⟨S640000, .i32⟩
  | .hbm, ⟨62, _⟩ => ⟨S640000x1, .i32⟩
  | .hbm, ⟨63, _⟩ => ⟨S640000x128, .f32⟩
  | .hbm, ⟨64, _⟩ => ⟨S128x128, .f32⟩
  | .hbm, ⟨65, _⟩ => ⟨S640000x128, .f32⟩
  | .hbm, ⟨66, _⟩ => ⟨S1x128, .f32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S128x128, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S20000x128, .f32⟩
  | .hbm, ⟨75, _⟩ => ⟨S640000x1, .i32⟩
  | .hbm, ⟨76, _⟩ => ⟨S20000x128, .f32⟩
  | .hbm, ⟨77, _⟩ => ⟨S20000x128, .f32⟩
  | .hbm, ⟨78, _⟩ => ⟨S_, .i32⟩
  | .hbm, ⟨79, _⟩ => ⟨S640000, .i32⟩
  | .hbm, ⟨80, _⟩ => ⟨S640000, .i1⟩
  | .hbm, ⟨81, _⟩ => ⟨S_, .i32⟩
  | .hbm, ⟨82, _⟩ => ⟨S640000, .i32⟩
  | .hbm, ⟨83, _⟩ => ⟨S640000, .i32⟩
  | .hbm, ⟨84, _⟩ => ⟨S640000, .i32⟩
  | .hbm, ⟨85, _⟩ => ⟨S640000x1, .i32⟩
  | .hbm, ⟨86, _⟩ => ⟨S640000x128, .f32⟩
  | .hbm, ⟨87, _⟩ => ⟨S128x128, .f32⟩
  | .hbm, ⟨88, _⟩ => ⟨S640000x128, .f32⟩
  | .hbm, ⟨89, _⟩ => ⟨S1x128, .f32⟩
  | .hbm, ⟨90, _⟩ => ⟨S640000x128, .f32⟩
  | .hbm, ⟨91, _⟩ => ⟨S640000x128, .f32⟩
  | .hbm, ⟨92, _⟩ => ⟨S640000x128, .f32⟩
  | .hbm, ⟨93, _⟩ => ⟨S128x128, .f32⟩
  | .hbm, ⟨94, _⟩ => ⟨S640000x128, .f32⟩
  | .hbm, ⟨95, _⟩ => ⟨S640000x128, .f32⟩
  | .hbm, ⟨96, _⟩ => ⟨S_, .f32⟩
  | .hbm, ⟨97, _⟩ => ⟨S20000x128, .f32⟩
  | .hbm, ⟨98, _⟩ => ⟨S640000x1, .i32⟩
  | .hbm, ⟨99, _⟩ => ⟨S20000x128, .f32⟩
  | .hbm, ⟨100, _⟩ => ⟨S20000x128, .f32⟩
  | .hbm, ⟨101, _⟩ => ⟨S128x256, .f32⟩
  | .hbm, ⟨102, _⟩ => ⟨S20000x256, .f32⟩
  | .hbm, ⟨103, _⟩ => ⟨S1x256, .f32⟩
  | .hbm, ⟨104, _⟩ => ⟨S20000x256, .f32⟩
  | .hbm, ⟨105, _⟩ => ⟨S20000x256, .f32⟩
  | .hbm, ⟨106, _⟩ => ⟨S20000x256, .f32⟩
  | .hbm, ⟨107, _⟩ => ⟨S256x4, .f32⟩
  | .hbm, ⟨108, _⟩ => ⟨S20000x4, .f32⟩
  | .hbm, ⟨109, _⟩ => ⟨S1x4, .f32⟩
  | .hbm, ⟨110, _⟩ => ⟨S20000x4, .f32⟩
  | .hbm, ⟨111, _⟩ => ⟨S20000x4, .f32⟩
  | .hbm, ⟨112, _⟩ => ⟨S_, .f32⟩
  | .hbm, ⟨113, _⟩ => ⟨S256x4, .f32⟩
  | .hbm, ⟨114, _⟩ => ⟨S20000x1, .i32⟩
  | .hbm, ⟨115, _⟩ => ⟨S256x4, .f32⟩
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_6 : Ref sig .tc := ⟨.hbm, 78, rfl⟩
abbrev main_v56 : Ref sig .tc := ⟨.hbm, 79, rfl⟩
abbrev main_v57 : Ref sig .tc := ⟨.hbm, 80, rfl⟩
abbrev main_c_7 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_8 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_9 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x64_S64x128_1_0 : S128x64.Transposes [1, 0] S64x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S_S20000x128 : S_.BroadcastsInDim S20000x128 (![] : Fin 0 → Fin S20000x128.rank)
  transposes_S256x128_S128x256_1_0 : S256x128.Transposes [1, 0] S128x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  transposes_S4x256_S256x4_1_0 : S4x256.Transposes [1, 0] S256x4
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S_S256x4 : S_.BroadcastsInDim S256x4 (![] : Fin 0 → Fin S256x4.rank)
  gather_S101x128_S20000x1_S20000x128_1_0_n_n_0_1_1128_wf : GatherDims.WF S101x128 S20000x1 S20000x128 [1] [0] [] [0] [] 1 ![1, 128]
  dot_S640000x64_S64x128_S640000x128_1_0_0_1_n_n_wf : DotDims.WF S640000x64 S64x128 S640000x128 [1] [0] [0] [1] [] []
  gather_S20000x128_S640000x1_S640000x128_1_0_n_n_0_1_1128_wf : GatherDims.WF S20000x128 S640000x1 S640000x128 [1] [0] [] [0] [] 1 ![1, 128]
  dot_S640000x128_S128x128_S640000x128_1_0_0_1_n_n_wf : DotDims.WF S640000x128 S128x128 S640000x128 [1] [0] [0] [1] [] []
  scatter_S20000x128_S640000x1_S640000x128_1_0_0_1_wf : ScatterDims.WF S20000x128 S640000x1 S640000x128 [1] [0] [0] 1
  dot_S20000x128_S128x256_S20000x256_1_0_0_1_n_n_wf : DotDims.WF S20000x128 S128x256 S20000x256 [1] [0] [0] [1] [] []
  dot_S20000x256_S256x4_S20000x4_1_0_0_1_n_n_wf : DotDims.WF S20000x256 S256x4 S20000x4 [1] [0] [0] [1] [] []
  scatter_S256x4_S20000x1_S20000x4_1_0_0_1_wf : ScatterDims.WF S256x4 S20000x1 S20000x4 [1] [0] [0] 1

variable [Facts₀]

def gather_S101x128_S20000x1_S20000x128_1_0_n_n_0_1_1128 : GatherDims S101x128 S20000x1 S20000x128 where
  offsetDims := [1]
  collapsedSliceDims := [0]
  operandBatchingDims := []
  startIndicesBatchingDims := []
  startIndexMap := [0]
  indexVectorDim := 1
  sliceSizes := ![1, 128]
  wf := gather_S101x128_S20000x1_S20000x128_1_0_n_n_0_1_1128_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def dot_S20000x256_S256x4_S20000x4_1_0_0_1_n_n : DotDims S20000x256 S256x4 S20000x4 where
  lhsContracting := [1]
  rhsContracting := [0]
  lhsNonContracting := [0]
  rhsNonContracting := [1]
  lhsBatch := []
  rhsBatch := []
  wf := dot_S20000x256_S256x4_S20000x4_1_0_0_1_n_n_wf
def scatter_S256x4_S20000x1_S20000x4_1_0_0_1 : ScatterDims S256x4 S20000x1 S20000x4 where
  updateWindowDims := [1]
  insertedWindowDims := [0]
  scatterDimsToOperandDims := [0]
  indexVectorDim := 1
  wf := scatter_S256x4_S20000x1_S20000x4_1_0_0_1_wf

class Facts : Prop extends Facts₀ where

variable [Facts]
-- ==== Proof.Spec.lean ====
/-
  The mathematics both programs compute, written once, index by index, over the extended reals.

  A message-passing network over a graph of 20000 nodes and 640000 edges with 128 features per node:
    * `edgeFeat`: the edge features  D[e, j] = ∑ₖ attr[e, k] · dfW[j, k] + dfb[j]   (64 terms);
    * `edgeMsg`: one round's message on edge e from the features c[e, ·] of its source node,
        M[e, j] = tanh ( ∑ₖ ((∑ₗ c[e, l] · cfW[k, l]) + cfb[k]) · D[e, k] · fcW[j, k] )   (128 × 128 terms);
    * `readout`: per node,  h[n, j] = ∑ₖ tanh((∑ₗ C[n, l] · r1W[k, l]) + r1b[k]) · r2W[j, k] + r2b[j];
    * `network`: three rounds  C ↦ C + segsum (edgeMsg (rows C) D …)  from the embedded nodes, then the
      readout, then the pooling over graphs.
  The irregular pieces — which embedding row a node takes, which node an edge reads, the segment sums — depend on
  the integer inputs only; they enter `network` as functions (`rows`, `segsum`, `pool`) and are never opened:
  both programs apply the same ones.  Every sum here is a whole contraction: nothing is regrouped, so no law of
  the extended reals beyond reading a matrix product as its sum is needed, and finiteness of the inputs plays no part.
  A bias enters as a plain row (a function of the column).
-/
import proofs.«165084_j44195213476531_1_alg».proof.ReferenceIdeal
import Idealize.ShloMosaic.PureOps.Ideal
import Idealize.ShloMosaic.Lib.ValueIdx

noncomputable section

namespace Cert.Spec

open Idealize.ShloMosaic Idealize.ShloMosaic.ValueIdx Cert.ReferenceIdeal

/-- Edge features: `attr · dfWᵀ + dfb`, entry by entry. -/
def edgeFeat (attr : FVec Ideal S640000x64 .f32) (dfW : FVec Ideal S128x64 .f32) (dfb : Fin 128 → EReal) :
    FVec Ideal S640000x128 .f32 :=
  fun i => (∑ k : Fin 64, attr (ix2 (i 0) k) * dfW (ix2 (i 1) k)) + dfb (i 1)

/-- The inner linear map of a round, before the product with the edge features: `c · cfWᵀ + cfb` at (e, k). -/
def cfeat (c : FVec Ideal S640000x128 .f32) (cfW : FVec Ideal S128x128 .f32) (cfb : Fin 128 → EReal)
    (e : Fin 640000) (k : Fin 128) : EReal :=
  (∑ l : Fin 128, c (ix2 e l) * cfW (ix2 k l)) + cfb k

/-- One round's messages: `tanh (((c · cfWᵀ + cfb) ∗ d) · fcWᵀ)`, entry by entry. -/
def edgeMsg (c d : FVec Ideal S640000x128 .f32) (cfW : FVec Ideal S128x128 .f32) (cfb : Fin 128 → EReal)
    (fcW : FVec Ideal S128x128 .f32) : FVec Ideal S640000x128 .f32 :=
  fun i => Ideal.tanh (∑ k : Fin 128, (cfeat c cfW cfb (i 0) k * d (ix2 (i 0) k)) * fcW (ix2 (i 1) k))

/-- The hidden layer of the readout at (n, k): `tanh (C · r1Wᵀ + r1b)`. -/
def hidden (C : FVec Ideal S20000x128 .f32) (r1W : FVec Ideal S256x128 .f32) (r1b : Fin 256 → EReal)
    (n : Fin 20000) (k : Fin 256) : EReal :=
  Ideal.tanh ((∑ l : Fin 128, C (ix2 n l) * r1W (ix2 k l)) + r1b k)

/-- The readout: `tanh (C · r1Wᵀ + r1b) · r2Wᵀ + r2b`, entry by entry. -/
def readout (C : FVec Ideal S20000x128 .f32) (r1W : FVec Ideal S256x128 .f32) (r1b : Fin 256 → EReal)
    (r2W : FVec Ideal S4x256 .f32) (r2b : Fin 4 → EReal) : FVec Ideal S20000x4 .f32 :=
  fun i => (∑ k : Fin 256, hidden C r1W r1b (i 0) k * r2W (ix2 (i 1) k)) + r2b (i 1)

/-- One round: every node adds the messages of the edges that point at it. -/
def round (rows : FVec Ideal S20000x128 .f32 → FVec Ideal S640000x128 .f32)
    (segsum : FVec Ideal S640000x128 .f32 → FVec Ideal S20000x128 .f32)
    (D : FVec Ideal S640000x128 .f32) (cfW : FVec Ideal S128x128 .f32) (cfb : Fin 128 → EReal)
    (fcW : FVec Ideal S128x128 .f32) (C : FVec Ideal S20000x128 .f32) : FVec Ideal S20000x128 .f32 :=
  addf C (segsum (edgeMsg (rows C) D cfW cfb fcW))

/-- The whole network: three rounds from the embedded nodes `C₀`, the readout, the pooling. -/
def network (C₀ : FVec Ideal S20000x128 .f32)
    (rows : FVec Ideal S20000x128 .f32 → FVec Ideal S640000x128 .f32)
    (segsum : FVec Ideal S640000x128 .f32 → FVec Ideal S20000x128 .f32)
    (pool : FVec Ideal S20000x4 .f32 → FVec Ideal S256x4 .f32)
    (attr : FVec Ideal S640000x64 .f32) (cfW : FVec Ideal S128x128 .f32) (cfb : Fin 128 → EReal)
    (dfW : FVec Ideal S128x64 .f32) (dfb : Fin 128 → EReal) (fcW : FVec Ideal S128x128 .f32)
    (r1W : FVec Ideal S256x128 .f32) (r1b : Fin 256 → EReal) (r2W : FVec Ideal S4x256 .f32) (r2b : Fin 4 → EReal) :
    FVec Ideal S256x4 .f32 :=
  pool (readout (round rows segsum (edgeFeat attr dfW dfb) cfW cfb fcW
    (round rows segsum (edgeFeat attr dfW dfb) cfW cfb fcW
      (round rows segsum (edgeFeat attr dfW dfb) cfW cfb fcW C₀))) r1W r1b r2W r2b)

end Cert.Spec

end
-- ==== Proof.FeatRegion.lean ====
/-
  Region 0 (the edge-feature kernel) read as a value: 40 grid points, point t taking rows 16000·t … 16000·t + 15999
  of the edge attributes with the whole weight and bias, and writing the same rows of the result.  Row e of a block is
  row e of the whole product, because the contraction (64 terms) lies inside the block; the blocks tile the 640000 rows.
-/
import proofs.«165084_j44195213476531_1_alg».proof.Proof.Gen.KernelIdeal.Frame
import proofs.«165084_j44195213476531_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FeatRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's payload at an index -/

/-- The contraction reads the left block at the output's row ... -/
theorem lhs_feat_0 (i : S16000x128.Idx) (q : dot_S16000x64_S64x128_S16000x128_1_0_0_1_n_n.contr.Idx) :
    (dot_S16000x64_S64x128_S16000x128_1_0_0_1_n_n.lhsIdx i q 0).val = (i 0).val := by
  unfold DotDims.lhsIdx
  rw [dif_neg (show ¬(0 : Fin S16000x64.rank) ∈ dot_S16000x64_S64x128_S16000x128_1_0_0_1_n_n.lhsBatch by decide), dif_pos (show (0 : Fin S16000x64.rank) ∈ dot_S16000x64_S64x128_S16000x128_1_0_0_1_n_n.lhsNonContracting by decide)]
  rfl
/-- ... and the contraction index as column, ... -/
theorem lhs_feat_1 (i : S16000x128.Idx) (q : dot_S16000x64_S64x128_S16000x128_1_0_0_1_n_n.contr.Idx) :
    (dot_S16000x64_S64x128_S16000x128_1_0_0_1_n_n.lhsIdx i q 1).val = (q ⟨0, by decide⟩).val :=
  dot_S16000x64_S64x128_S16000x128_1_0_0_1_n_n.lhsIdx_val_of_single rfl i q
/-- ... the transposed weight at the contraction index as row ... -/
theorem rhs_feat_0 (i : S16000x128.Idx) (q : dot_S16000x64_S64x128_S16000x128_1_0_0_1_n_n.contr.Idx) :
    (dot_S16000x64_S64x128_S16000x128_1_0_0_1_n_n.rhsIdx i q 0).val = (q ⟨0, by decide⟩).val :=
  dot_S16000x64_S64x128_S16000x128_1_0_0_1_n_n.rhsIdx_val_of_single rfl i q
/-- ... and the output's column. -/
theorem rhs_feat_1 (i : S16000x128.Idx) (q : dot_S16000x64_S64x128_S16000x128_1_0_0_1_n_n.contr.Idx) :
    (dot_S16000x64_S64x128_S16000x128_1_0_0_1_n_n.rhsIdx i q 1).val = (i 1).val := by
  unfold DotDims.rhsIdx
  rw [dif_neg (show ¬(1 : Fin S64x128.rank) ∈ dot_S16000x64_S64x128_S16000x128_1_0_0_1_n_n.rhsBatch by decide), dif_pos (show (1 : Fin S64x128.rank) ∈ dot_S16000x64_S64x128_S16000x128_1_0_0_1_n_n.rhsNonContracting by decide)]
  rfl

/-- A block product into the zero accumulator, read at row p, column q: the 64-term sum over the contraction. -/
theorem matmul_feat_apply (a : FVec Ideal S16000x64 .bf16) (b : FVec Ideal S64x128 .bf16) (p : Fin 16000) (q : Fin 128) :
    matmul dot_S16000x64_S64x128_S16000x128_1_0_0_1_n_n none a b (constant S16000x128 .f32 0x00000000#32) (ix2 p q)
      = ∑ k : Fin 64, a (ix2 p k) * b (ix2 k q) := by
  show FloatOps.matmul dot_S16000x64_S64x128_S16000x128_1_0_0_1_n_n none a b (constant S16000x128 .f32 0x00000000#32) (ix2 p q) = _
  rw [Ideal.matmul_constant_zero_apply, ← Equiv.sum_comp (ValueIdx.contrEquiv1 dot_S16000x64_S64x128_S16000x128_1_0_0_1_n_n 64 rfl rfl).symm]
  refine Finset.sum_congr rfl fun k _ => ?_
  have hk := ValueIdx.contrEquiv1_symm_val dot_S16000x64_S64x128_S16000x128_1_0_0_1_n_n 64 rfl rfl k
  have el : dot_S16000x64_S64x128_S16000x128_1_0_0_1_n_n.lhsIdx (ix2 p q) ((ValueIdx.contrEquiv1 dot_S16000x64_S64x128_S16000x128_1_0_0_1_n_n 64 rfl rfl).symm k) = ix2 p k := funext fun a => Fin.ext (by
    match a with
    | ⟨0, _⟩ => exact lhs_feat_0 _ _
    | ⟨1, _⟩ => exact (lhs_feat_1 _ _).trans hk)
  have er : dot_S16000x64_S64x128_S16000x128_1_0_0_1_n_n.rhsIdx (ix2 p q) ((ValueIdx.contrEquiv1 dot_S16000x64_S64x128_S16000x128_1_0_0_1_n_n 64 rfl rfl).symm k) = ix2 k q := funext fun a => Fin.ext (by
    match a with
    | ⟨0, _⟩ => exact (rhs_feat_0 _ _).trans hk
    | ⟨1, _⟩ => exact rhs_feat_1 _ _)
  rw [el, er]

/-- The payload at row p, column q of a block: row p of the attributes against row q of the weight, plus the bias at q. -/
theorem pay_apply (x0 : Vec Ideal S16000x64 .f32) (x1 : Vec Ideal S128x64 .f32) (x2 : Vec Ideal S1x128 .f32)
    (p : Fin 16000) (q : Fin 128) :
    k0_pay1 x0 x1 x2 (ix2 p q) = (∑ k : Fin 64, x0 (ix2 p k) * x1 (ix2 q k)) + x2 (ix2 0 q) := by
  unfold k0_pay1
  rw [addf_apply, matmul_feat_apply, shapeCast_self, broadcastTo_1b_ab_apply]
  refine congrArg (· + x2 (ix2 0 q)) (Finset.sum_congr rfl fun k _ => ?_)
  rw [transpose_ix2_apply]
  rfl

/-! ## What a point writes back -/

theorem hz : (![0, 0] : Fin 2 → Nat) = fun _ => 0 := funext fun a => by
  match a with
  | ⟨0, _⟩ => rfl
  | ⟨1, _⟩ => rfl

/-- The printed index maps over the 40 points: the attributes' block and the output's block are both block t of the rows,
    the weight and the bias are whole. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Point t writes back rows 16000·t … 16000·t + 15999 of the edge features of the arrays the region found. -/
theorem flushed_eq (c : Dev nD) (t : Fin cfg0.N) :
    (dat0 (F := Ideal) V c).flushed 3 t = ((cfg0.win 3).blk t).view.read (Elt Ideal)
      (Cert.Spec.edgeFeat (V c main_arg2) (V c main_arg7) (fun j => V c main_v11 (ix2 0 j))) := by
  show (cfg0.win 3).cut (grid0.coords t) ((dat0 V c).after 3 t) = _
  rw [after0_3]
  unfold out0_3
  rw [View.canon_unit_zero hz]
  simp only [View.ld_unit_zero (S := S16000x64) hz, View.ld_unit_zero (S := S128x64) hz, View.ld_unit_zero (S := S1x128) hz]
  obtain ⟨e0, e1, e2, e3, e4, e5, e6, e7⟩ := idx_facts t
  funext j
  obtain ⟨p, q, rfl⟩ : ∃ (p : Fin 16000) (q : Fin 128), j = ix2 p q := ⟨j 0, j 1, eq_ix2 j⟩
  show k0_pay1 (iblk0 V c 0 t) (iblk0 V c 1 t) (iblk0 V c 2 t) (ix2 p q)
    = Cert.Spec.edgeFeat (V c main_arg2) (V c main_arg7) (fun j => V c main_v11 (ix2 0 j)) (((cfg0.win 3).blk t).view.emb (ix2 p q))
  rw [pay_apply]
  unfold Cert.Spec.edgeFeat
  refine congrArg₂ (· + ·) (Finset.sum_congr rfl fun k _ => congrArg₂ (· * ·) ?_ ?_) ?_
  · show V c main_arg2 (((cfg0.win 0).blk t).view.emb (ix2 p k)) = _
    refine congrArg (V c main_arg2) (funext fun a => Fin.ext ?_)
    match a with
    | ⟨0, _⟩ => show win0_0.index t (0 : Fin 2) * 16000 + 1 * p.val = win0_3.index t (0 : Fin 2) * 16000 + 1 * p.val; omega
    | ⟨1, _⟩ => show win0_0.index t (1 : Fin 2) * 64 + 1 * k.val = k.val; omega
  · show V c main_arg7 (((cfg0.win 1).blk t).view.emb (ix2 q k)) = _
    refine congrArg (V c main_arg7) (funext fun a => Fin.ext ?_)
    match a with
    | ⟨0, _⟩ => show win0_1.index t (0 : Fin 2) * 128 + 1 * q.val = win0_3.index t (1 : Fin 2) * 128 + 1 * q.val; omega
    | ⟨1, _⟩ => show win0_1.index t (1 : Fin 2) * 64 + 1 * k.val = k.val; omega
  · show V c main_v11 (((cfg0.win 2).blk t).view.emb (ix2 0 q)) = _
    refine congrArg (V c main_v11) (funext fun a => Fin.ext ?_)
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega

/-! ## The blocks tile the rows -/

/-- An index of the result lies in point t's block iff each coordinate is in the block's range on its axis. -/
theorem mem_blk (t : Fin cfg0.N) (i : S640000x128.Idx) :
    i ∈ ((cfg0.win 3).blk t).view.set ↔ ∀ a : Fin 2, win0_3.index t a * S16000x128.size a ≤ (i a).val ∧ (i a).val < win0_3.index t a * S16000x128.size a + S16000x128.size a := by
  show i ∈ ((View.whole main_v12).slice (win0_3.rect t)).set ↔ _
  rw [View.set_slice_whole, Rect.mem_set_unit]
  exact Iff.rfl

/-- Row r lies in the block of point r / 16000, and that point writes its block back. -/
theorem cover (i : S640000x128.Idx) :
    ∃ t : Fin cfg0.N, (cfg0.win 3).flush t = true ∧ i ∈ ((cfg0.win 3).blk t).view.set := by
  have hi0 : (i 0).val < 640000 := (i 0).isLt
  have hi1 : (i 1).val < 128 := (i 1).isLt
  have hN : cfg0.N = 40 := rfl
  have hlt : (i 0).val / 16000 < cfg0.N := by rw [hN]; omega
  obtain ⟨e0, e1, e2, e3, e4, e5, e6, e7⟩ := idx_facts ⟨(i 0).val / 16000, hlt⟩
  have ht : (⟨(i 0).val / 16000, hlt⟩ : Fin cfg0.N).val = (i 0).val / 16000 := rfl
  refine ⟨⟨(i 0).val / 16000, hlt⟩, flush0_3 _, ?_⟩
  rw [mem_blk]
  intro a
  match a with
  | ⟨0, _⟩ =>
    show win0_3.index ⟨(i 0).val / 16000, hlt⟩ (0 : Fin 2) * 16000 ≤ (i 0).val ∧ (i 0).val < win0_3.index ⟨(i 0).val / 16000, hlt⟩ (0 : Fin 2) * 16000 + 16000
    omega
  | ⟨1, _⟩ =>
    show win0_3.index ⟨(i 0).val / 16000, hlt⟩ (1 : Fin 2) * 128 ≤ (i 1).val ∧ (i 1).val < win0_3.index ⟨(i 0).val / 16000, hlt⟩ (1 : Fin 2) * 128 + 128
    omega

/-- After region 0 its output array holds the edge features of the arrays the region found. -/
theorem feat_final (c : Dev nD) :
    (dat0 (F := Ideal) V c).arrAt 3 cfg0.N
      = Cert.Spec.edgeFeat (V c main_arg2) (V c main_arg7) (fun j => V c main_v11 (ix2 0 j)) :=
  (dat0 (F := Ideal) V c).arrAt_eq_of_cover 3 _ (fun t _ => flushed_eq V c t) cover

end Cert.KernelIdeal.FeatRegion

end
-- ==== Proof.MsgRegion.lean ====
/-
  Regions 1, 2, 3 (one round's edge kernel each) read as values: 80 grid points, point t taking rows 8000·t … 8000·t + 7999
  of the gathered source features and of the edge features with the whole weights and bias, writing the same rows of the
  messages.  Both contractions (128 terms) lie inside a block, so row e of a block is row e of the whole expression.
-/
import proofs.«165084_j44195213476531_1_alg».proof.Proof.Gen.KernelIdeal.Frame
import proofs.«165084_j44195213476531_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MsgRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## One block product at an index -/

/-- The block product's contraction reads the left operand at the output's row ... -/
theorem lhs_mm_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- ... and the contracted coordinate as column; -/
theorem lhs_mm_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- the right operand at the contracted coordinate as row ... -/
theorem rhs_mm_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- ... and the output's column. -/
theorem rhs_mm_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- A block product into the zero block, read at row `p` and column `q`: the sum over the contracted coordinate of
    the left operand's row `p` times the right operand's column `q`. -/
theorem mm_apply {φ₁ φ₂ : FTy} (a : FVec Ideal S8000x128 φ₁) (b : FVec Ideal S128x128 φ₂) (p : Fin 8000) (q : Fin 128) :
    matmul dot_S8000x128_S128x128_S8000x128_1_0_0_1_n_n none a b (constant (F := Ideal) S8000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's payload at an index -/

/-- Regions 2 and 3 run the same body as region 1. -/
theorem k2_pay1_eq : @k2_pay1 = @k1_pay1 := rfl
theorem k3_pay1_eq : @k3_pay1 = @k1_pay1 := rfl

/-- The body's result at row `p`, column `q` of a block: the first product (source features against the first weight,
    contracted over `l`) plus the bias, times the edge features, entry by entry; then the second product (against the
    second weight, contracted over `k`) under `tanh`.  Both weights enter transposed. -/
theorem pay_apply (x0 x11 : Vec Ideal S8000x128 .f32) (x3 x15 : Vec Ideal S128x128 .f32) (x7 : Vec Ideal S1x128 .f32)
    (p : Fin 8000) (q : Fin 128) :
    k1_pay1 (F := Ideal) x0 x3 x7 x11 x15 (ix2 p q)
      = Ideal.tanh (∑ k : Fin 128, (((∑ l : Fin 128, x0 (ix2 p l) * x3 (ix2 k l)) + x7 (ix2 0 k)) * x11 (ix2 p k)) * x15 (ix2 q k)) := by
  unfold k1_pay1
  show Ideal.tanh (matmul dot_S8000x128_S128x128_S8000x128_1_0_0_1_n_n none _ _ (constant (F := Ideal) S8000x128 .f32 0x00000000#32) (ix2 p q)) = _
  rw [mm_apply]
  refine congrArg Ideal.tanh (Finset.sum_congr rfl fun k _ => ?_)
  rw [truncf_apply, mulf_apply, addf_apply, mm_apply, transpose_ix2_apply, truncf_apply, shapeCast_self, shapeCast_self,
    broadcastTo_1b_ab_apply, shapeCast_self]
  refine congrArg (fun z => (z + x7 (ix2 0 k)) * x11 (ix2 p k) * x15 (ix2 q k)) (Finset.sum_congr rfl fun l _ => ?_)
  rw [truncf_apply, transpose_ix2_apply, truncf_apply]

/-! ## From blocks to the arrays -/

theorem hz : (![0, 0] : Fin 2 → Nat) = fun _ => 0 := funext fun a => by
  match a with
  | ⟨0, _⟩ => rfl
  | ⟨1, _⟩ => rfl

/-! ## Region 1: what a point writes back, and the whole array -/

/-- The printed index maps over the 80 points: the source features', the edge features' and the output's block are
    block `t` of the rows at column block 0; the two weights and the bias row are whole. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `8000·t + p` of the array. -/
abbrev row1 (t : Fin cfg1.N) (p : Fin 8000) : Fin 640000 :=
  ⟨t.val * 8000 + p.val, by have := t.isLt; have : cfg1.N = 80 := rfl; omega⟩

/-- Point `t`'s block of the source features, at row `p` and column `l` of the block, is the array at row
    `8000·t + p`, column `l`; -/
theorem emb1_0 (t : Fin cfg1.N) (p : Fin 8000) (l : Fin 128) :
    ((cfg1.win 0).blk t).view.emb (ix2 p l) = ix2 (row1 t p) l := by
  obtain ⟨e00, e01, e10, e11, e20, e21, e30, e31, e40, e41, e50, e51⟩ := idx_facts1 t
  funext a; apply Fin.ext
  match a with
  | ⟨0, _⟩ => show win1_0.index t (0 : Fin 2) * 8000 + 1 * p.val = t.val * 8000 + p.val; omega
  | ⟨1, _⟩ => show win1_0.index t (1 : Fin 2) * 128 + 1 * l.val = l.val; omega
/-- likewise of the edge features -/
theorem emb1_1 (t : Fin cfg1.N) (p : Fin 8000) (l : Fin 128) :
    ((cfg1.win 1).blk t).view.emb (ix2 p l) = ix2 (row1 t p) l := by
  obtain ⟨e00, e01, e10, e11, e20, e21, e30, e31, e40, e41, e50, e51⟩ := idx_facts1 t
  funext a; apply Fin.ext
  match a with
  | ⟨0, _⟩ => show win1_1.index t (0 : Fin 2) * 8000 + 1 * p.val = t.val * 8000 + p.val; omega
  | ⟨1, _⟩ => show win1_1.index t (1 : Fin 2) * 128 + 1 * l.val = l.val; omega
/-- and of the output. -/
theorem emb1_5 (t : Fin cfg1.N) (p : Fin 8000) (l : Fin 128) :
    ((cfg1.win 5).blk t).view.emb (ix2 p l) = ix2 (row1 t p) l := by
  obtain ⟨e00, e01, e10, e11, e20, e21, e30, e31, e40, e41, e50, e51⟩ := idx_facts1 t
  funext a; apply Fin.ext
  match a with
  | ⟨0, _⟩ => show win1_5.index t (0 : Fin 2) * 8000 + 1 * p.val = t.val * 8000 + p.val; omega
  | ⟨1, _⟩ => show win1_5.index t (1 : Fin 2) * 128 + 1 * l.val = l.val; omega
/-- The first weight's one block is the weight; -/
theorem emb1_2 (t : Fin cfg1.N) (k : Fin 128) (l : Fin 128) :
    ((cfg1.win 2).blk t).view.emb (ix2 k l) = ix2 k l := by
  obtain ⟨e00, e01, e10, e11, e20, e21, e30, e31, e40, e41, e50, e51⟩ := idx_facts1 t
  funext a; apply Fin.ext
  match a with
  | ⟨0, _⟩ => show win1_2.index t (0 : Fin 2) * 128 + 1 * k.val = k.val; omega
  | ⟨1, _⟩ => show win1_2.index t (1 : Fin 2) * 128 + 1 * l.val = l.val; omega
/-- the bias row's one block is the bias row; -/
theorem emb1_3 (t : Fin cfg1.N) (k : Fin 128) :
    ((cfg1.win 3).blk t).view.emb (ix2 (0 : Fin 1) k) = ix2 (0 : Fin 1) k := by
  obtain ⟨e00, e01, e10, e11, e20, e21, e30, e31, e40, e41, e50, e51⟩ := idx_facts1 t
  funext a; apply Fin.ext
  match a with
  | ⟨0, _⟩ => show win1_3.index t (0 : Fin 2) * 1 + 1 * 0 = 0; omega
  | ⟨1, _⟩ => show win1_3.index t (1 : Fin 2) * 128 + 1 * k.val = k.val; omega
/-- the second weight's one block is the weight. -/
theorem emb1_4 (t : Fin cfg1.N) (k : Fin 128) (l : Fin 128) :
    ((cfg1.win 4).blk t).view.emb (ix2 k l) = ix2 k l := by
  obtain ⟨e00, e01, e10, e11, e20, e21, e30, e31, e40, e41, e50, e51⟩ := idx_facts1 t
  funext a; apply Fin.ext
  match a with
  | ⟨0, _⟩ => show win1_4.index t (0 : Fin 2) * 128 + 1 * k.val = k.val; omega
  | ⟨1, _⟩ => show win1_4.index t (1 : Fin 2) * 128 + 1 * l.val = l.val; omega

/-- The blocks the body loads, entry by entry, as entries of the arrays the region found. -/
theorem blk1_0 (c : Dev nD) (t : Fin cfg1.N) (p : Fin 8000) (l : Fin 128) :
    iblk1 (F := Ideal) V c 0 t (ix2 p l) = V c main_v19 (ix2 (row1 t p) l) := by
  show V c main_v19 (((cfg1.win 0).blk t).view.emb (ix2 p l)) = _
  rw [emb1_0]
theorem blk1_1 (c : Dev nD) (t : Fin cfg1.N) (p : Fin 8000) (l : Fin 128) :
    iblk1 (F := Ideal) V c 1 t (ix2 p l) = V c main_v12 (ix2 (row1 t p) l) := by
  show V c main_v12 (((cfg1.win 1).blk t).view.emb (ix2 p l)) = _
  rw [emb1_1]
theorem blk1_2 (c : Dev nD) (t : Fin cfg1.N) (k : Fin 128) (l : Fin 128) :
    iblk1 (F := Ideal) V c 2 t (ix2 k l) = V c main_arg5 (ix2 k l) := by
  show V c main_arg5 (((cfg1.win 2).blk t).view.emb (ix2 k l)) = _
  rw [emb1_2]
theorem blk1_3 (c : Dev nD) (t : Fin cfg1.N) (k : Fin 128) :
    iblk1 (F := Ideal) V c 3 t (ix2 (0 : Fin 1) k) = V c main_v20 (ix2 (0 : Fin 1) k) := by
  show V c main_v20 (((cfg1.win 3).blk t).view.emb (ix2 (0 : Fin 1) k)) = _
  rw [emb1_3]
theorem blk1_4 (c : Dev nD) (t : Fin cfg1.N) (k : Fin 128) (l : Fin 128) :
    iblk1 (F := Ideal) V c 4 t (ix2 k l) = V c main_arg9 (ix2 k l) := by
  show V c main_arg9 (((cfg1.win 4).blk t).view.emb (ix2 k l)) = _
  rw [emb1_4]

/-- What point `t` writes back is block `t` of the messages of the arrays the region found: both contractions
    stay inside the row, so row `p` of the block's result is row `8000·t + p` of the whole expression. -/
theorem flushed1_eq (c : Dev nD) (t : Fin cfg1.N) :
    (dat1 (F := Ideal) V c).flushed 5 t = ((cfg1.win 5).blk t).view.read (Elt Ideal)
      (Cert.Spec.edgeMsg (V c main_v19) (V c main_v12) (V c main_arg5) (fun j => V c main_v20 (ix2 0 j)) (V c main_arg9)) := by
  show (cfg1.win 5).cut (grid1.coords t) ((dat1 V c).after 5 t) = _
  rw [after1_5]
  unfold out1_5
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k1_pay1 (F := Ideal) (iblk1 V c 0 t) (iblk1 V c 2 t) (iblk1 V c 3 t) (iblk1 V c 1 t) (iblk1 V c 4 t) (ix2 p q)
    = Cert.Spec.edgeMsg (V c main_v19) (V c main_v12) (V c main_arg5) (fun j => V c main_v20 (ix2 0 j)) (V c main_arg9) (((cfg1.win 5).blk t).view.emb (ix2 p q))
  rw [pay_apply, emb1_5]
  simp only [blk1_0, blk1_1, blk1_2, blk1_3, blk1_4]
  rfl

/-- An index of the array is in point `t`'s block iff each coordinate is in the block's range on its axis. -/
theorem mem_blk1 (t : Fin cfg1.N) (i : S640000x128.Idx) :
    i ∈ ((cfg1.win 5).blk t).view.set ↔ ∀ a : Fin 2, win1_5.index t a * S8000x128.size a ≤ (i a).val ∧ (i a).val < win1_5.index t a * S8000x128.size a + S8000x128.size a := by
  show i ∈ ((View.whole main_v21).slice (win1_5.rect t)).set ↔ _
  rw [View.set_slice_whole, Rect.mem_set_unit]
  exact Iff.rfl

/-- Every row lies in some point's block: row `r` in that of point `r / 8000`. -/
theorem cover1 (i : S640000x128.Idx) :
    ∃ t : Fin cfg1.N, (cfg1.win 5).flush t = true ∧ i ∈ ((cfg1.win 5).blk t).view.set := by
  have hi0 : (i 0).val < 640000 := (i 0).isLt
  have hi1 : (i 1).val < 128 := (i 1).isLt
  refine ⟨⟨(i 0).val / 8000, by have : cfg1.N = 80 := rfl; omega⟩, flush1_5 _, ?_⟩
  rw [mem_blk1]
  obtain ⟨e00, e01, e10, e11, e20, e21, e30, e31, e40, e41, e50, e51⟩ := idx_facts1 ⟨(i 0).val / 8000, by have : cfg1.N = 80 := rfl; omega⟩
  intro a
  match a with
  | ⟨0, _⟩ =>
    show win1_5.index _ (0 : Fin 2) * 8000 ≤ (i 0).val ∧ (i 0).val < win1_5.index _ (0 : Fin 2) * 8000 + 8000
    rw [e50]; show (i 0).val / 8000 * 8000 ≤ (i 0).val ∧ (i 0).val < (i 0).val / 8000 * 8000 + 8000; omega
  | ⟨1, _⟩ =>
    show win1_5.index _ (1 : Fin 2) * 128 ≤ (i 1).val ∧ (i 1).val < win1_5.index _ (1 : Fin 2) * 128 + 128
    rw [e51]; omega

/-- After region 1 its output array holds the messages of the arrays the region found. -/
theorem msg_final1 (c : Dev nD) :
    (dat1 (F := Ideal) V c).arrAt 5 cfg1.N
      = Cert.Spec.edgeMsg (V c main_v19) (V c main_v12) (V c main_arg5) (fun j => V c main_v20 (ix2 0 j)) (V c main_arg9) :=
  (dat1 (F := Ideal) V c).arrAt_eq_of_cover 5 _ (fun t _ => flushed1_eq V c t) cover1

/-! ## Region 2: what a point writes back, and the whole array -/

/-- The printed index maps over the 80 points: the source features', the edge features' and the output's block are
    block `t` of the rows at column block 0; the two weights and the bias row are whole. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `8000·t + p` of the array. -/
abbrev row2 (t : Fin cfg2.N) (p : Fin 8000) : Fin 640000 :=
  ⟨t.val * 8000 + p.val, by have := t.isLt; have : cfg2.N = 80 := rfl; omega⟩

/-- Point `t`'s block of the source features, at row `p` and column `l` of the block, is the array at row
    `8000·t + p`, column `l`; -/
theorem emb2_0 (t : Fin cfg2.N) (p : Fin 8000) (l : Fin 128) :
    ((cfg2.win 0).blk t).view.emb (ix2 p l) = ix2 (row2 t p) l := by
  obtain ⟨e00, e01, e10, e11, e20, e21, e30, e31, e40, e41, e50, e51⟩ := idx_facts2 t
  funext a; apply Fin.ext
  match a with
  | ⟨0, _⟩ => show win2_0.index t (0 : Fin 2) * 8000 + 1 * p.val = t.val * 8000 + p.val; omega
  | ⟨1, _⟩ => show win2_0.index t (1 : Fin 2) * 128 + 1 * l.val = l.val; omega
/-- likewise of the edge features -/
theorem emb2_1 (t : Fin cfg2.N) (p : Fin 8000) (l : Fin 128) :
    ((cfg2.win 1).blk t).view.emb (ix2 p l) = ix2 (row2 t p) l := by
  obtain ⟨e00, e01, e10, e11, e20, e21, e30, e31, e40, e41, e50, e51⟩ := idx_facts2 t
  funext a; apply Fin.ext
  match a with
  | ⟨0, _⟩ => show win2_1.index t (0 : Fin 2) * 8000 + 1 * p.val = t.val * 8000 + p.val; omega
  | ⟨1, _⟩ => show win2_1.index t (1 : Fin 2) * 128 + 1 * l.val = l.val; omega
/-- and of the output. -/
theorem emb2_5 (t : Fin cfg2.N) (p : Fin 8000) (l : Fin 128) :
    ((cfg2.win 5).blk t).view.emb (ix2 p l) = ix2 (row2 t p) l := by
  obtain ⟨e00, e01, e10, e11, e20, e21, e30, e31, e40, e41, e50, e51⟩ := idx_facts2 t
  funext a; apply Fin.ext
  match a with
  | ⟨0, _⟩ => show win2_5.index t (0 : Fin 2) * 8000 + 1 * p.val = t.val * 8000 + p.val; omega
  | ⟨1, _⟩ => show win2_5.index t (1 : Fin 2) * 128 + 1 * l.val = l.val; omega
/-- The first weight's one block is the weight; -/
theorem emb2_2 (t : Fin cfg2.N) (k : Fin 128) (l : Fin 128) :
    ((cfg2.win 2).blk t).view.emb (ix2 k l) = ix2 k l := by
  obtain ⟨e00, e01, e10, e11, e20, e21, e30, e31, e40, e41, e50, e51⟩ := idx_facts2 t
  funext a; apply Fin.ext
  match a with
  | ⟨0, _⟩ => show win2_2.index t (0 : Fin 2) * 128 + 1 * k.val = k.val; omega
  | ⟨1, _⟩ => show win2_2.index t (1 : Fin 2) * 128 + 1 * l.val = l.val; omega
/-- the bias row's one block is the bias row; -/
theorem emb2_3 (t : Fin cfg2.N) (k : Fin 128) :
    ((cfg2.win 3).blk t).view.emb (ix2 (0 : Fin 1) k) = ix2 (0 : Fin 1) k := by
  obtain ⟨e00, e01, e10, e11, e20, e21, e30, e31, e40, e41, e50, e51⟩ := idx_facts2 t
  funext a; apply Fin.ext
  match a with
  | ⟨0, _⟩ => show win2_3.index t (0 : Fin 2) * 1 + 1 * 0 = 0; omega
  | ⟨1, _⟩ => show win2_3.index t (1 : Fin 2) * 128 + 1 * k.val = k.val; omega
/-- the second weight's one block is the weight. -/
theorem emb2_4 (t : Fin cfg2.N) (k : Fin 128) (l : Fin 128) :
    ((cfg2.win 4).blk t).view.emb (ix2 k l) = ix2 k l := by
  obtain ⟨e00, e01, e10, e11, e20, e21, e30, e31, e40, e41, e50, e51⟩ := idx_facts2 t
  funext a; apply Fin.ext
  match a with
  | ⟨0, _⟩ => show win2_4.index t (0 : Fin 2) * 128 + 1 * k.val = k.val; omega
  | ⟨1, _⟩ => show win2_4.index t (1 : Fin 2) * 128 + 1 * l.val = l.val; omega

/-- The blocks the body loads, entry by entry, as entries of the arrays the region found. -/
theorem blk2_0 (c : Dev nD) (t : Fin cfg2.N) (p : Fin 8000) (l : Fin 128) :
    iblk2 (F := Ideal) V c 0 t (ix2 p l) = V c main_v32 (ix2 (row2 t p) l) := by
  show V c main_v32 (((cfg2.win 0).blk t).view.emb (ix2 p l)) = _
  rw [emb2_0]
theorem blk2_1 (c : Dev nD) (t : Fin cfg2.N) (p : Fin 8000) (l : Fin 128) :
    iblk2 (F := Ideal) V c 1 t (ix2 p l) = V c main_v12 (ix2 (row2 t p) l) := by
  show V c main_v12 (((cfg2.win 1).blk t).view.emb (ix2 p l)) = _
  rw [emb2_1]
theorem blk2_2 (c : Dev nD) (t : Fin cfg2.N) (k : Fin 128) (l : Fin 128) :
    iblk2 (F := Ideal) V c 2 t (ix2 k l) = V c main_arg5 (ix2 k l) := by
  show V c main_arg5 (((cfg2.win 2).blk t).view.emb (ix2 k l)) = _
  rw [emb2_2]
theorem blk2_3 (c : Dev nD) (t : Fin cfg2.N) (k : Fin 128) :
    iblk2 (F := Ideal) V c 3 t (ix2 (0 : Fin 1) k) = V c main_v33 (ix2 (0 : Fin 1) k) := by
  show V c main_v33 (((cfg2.win 3).blk t).view.emb (ix2 (0 : Fin 1) k)) = _
  rw [emb2_3]
theorem blk2_4 (c : Dev nD) (t : Fin cfg2.N) (k : Fin 128) (l : Fin 128) :
    iblk2 (F := Ideal) V c 4 t (ix2 k l) = V c main_arg9 (ix2 k l) := by
  show V c main_arg9 (((cfg2.win 4).blk t).view.emb (ix2 k l)) = _
  rw [emb2_4]

/-- What point `t` writes back is block `t` of the messages of the arrays the region found: both contractions
    stay inside the row, so row `p` of the block's result is row `8000·t + p` of the whole expression. -/
theorem flushed2_eq (c : Dev nD) (t : Fin cfg2.N) :
    (dat2 (F := Ideal) V c).flushed 5 t = ((cfg2.win 5).blk t).view.read (Elt Ideal)
      (Cert.Spec.edgeMsg (V c main_v32) (V c main_v12) (V c main_arg5) (fun j => V c main_v33 (ix2 0 j)) (V c main_arg9)) := by
  show (cfg2.win 5).cut (grid2.coords t) ((dat2 V c).after 5 t) = _
  rw [after2_5]
  unfold out2_5
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k2_pay1 (F := Ideal) (iblk2 V c 0 t) (iblk2 V c 2 t) (iblk2 V c 3 t) (iblk2 V c 1 t) (iblk2 V c 4 t) (ix2 p q)
    = Cert.Spec.edgeMsg (V c main_v32) (V c main_v12) (V c main_arg5) (fun j => V c main_v33 (ix2 0 j)) (V c main_arg9) (((cfg2.win 5).blk t).view.emb (ix2 p q))
  rw [k2_pay1_eq, pay_apply, emb2_5]
  simp only [blk2_0, blk2_1, blk2_2, blk2_3, blk2_4]
  rfl

/-- An index of the array is in point `t`'s block iff each coordinate is in the block's range on its axis. -/
theorem mem_blk2 (t : Fin cfg2.N) (i : S640000x128.Idx) :
    i ∈ ((cfg2.win 5).blk t).view.set ↔ ∀ a : Fin 2, win2_5.index t a * S8000x128.size a ≤ (i a).val ∧ (i a).val < win2_5.index t a * S8000x128.size a + S8000x128.size a := by
  show i ∈ ((View.whole main_v34).slice (win2_5.rect t)).set ↔ _
  rw [View.set_slice_whole, Rect.mem_set_unit]
  exact Iff.rfl

/-- Every row lies in some point's block: row `r` in that of point `r / 8000`. -/
theorem cover2 (i : S640000x128.Idx) :
    ∃ t : Fin cfg2.N, (cfg2.win 5).flush t = true ∧ i ∈ ((cfg2.win 5).blk t).view.set := by
  have hi0 : (i 0).val < 640000 := (i 0).isLt
  have hi1 : (i 1).val < 128 := (i 1).isLt
  refine ⟨⟨(i 0).val / 8000, by have : cfg2.N = 80 := rfl; omega⟩, flush2_5 _, ?_⟩
  rw [mem_blk2]
  obtain ⟨e00, e01, e10, e11, e20, e21, e30, e31, e40, e41, e50, e51⟩ := idx_facts2 ⟨(i 0).val / 8000, by have : cfg2.N = 80 := rfl; omega⟩
  intro a
  match a with
  | ⟨0, _⟩ =>
    show win2_5.index _ (0 : Fin 2) * 8000 ≤ (i 0).val ∧ (i 0).val < win2_5.index _ (0 : Fin 2) * 8000 + 8000
    rw [e50]; show (i 0).val / 8000 * 8000 ≤ (i 0).val ∧ (i 0).val < (i 0).val / 8000 * 8000 + 8000; omega
  | ⟨1, _⟩ =>
    show win2_5.index _ (1 : Fin 2) * 128 ≤ (i 1).val ∧ (i 1).val < win2_5.index _ (1 : Fin 2) * 128 + 128
    rw [e51]; omega

/-- After region 2 its output array holds the messages of the arrays the region found. -/
theorem msg_final2 (c : Dev nD) :
    (dat2 (F := Ideal) V c).arrAt 5 cfg2.N
      = Cert.Spec.edgeMsg (V c main_v32) (V c main_v12) (V c main_arg5) (fun j => V c main_v33 (ix2 0 j)) (V c main_arg9) :=
  (dat2 (F := Ideal) V c).arrAt_eq_of_cover 5 _ (fun t _ => flushed2_eq V c t) cover2

/-! ## Region 3: what a point writes back, and the whole array -/

/-- The printed index maps over the 80 points: the source features', the edge features' and the output's block are
    block `t` of the rows at column block 0; the two weights and the bias row are whole. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row `8000·t + p` of the array. -/
abbrev row3 (t : Fin cfg3.N) (p : Fin 8000) : Fin 640000 :=
  ⟨t.val * 8000 + p.val, by have := t.isLt; have : cfg3.N = 80 := rfl; omega⟩

/-- Point `t`'s block of the source features, at row `p` and column `l` of the block, is the array at row
    `8000·t + p`, column `l`; -/
theorem emb3_0 (t : Fin cfg3.N) (p : Fin 8000) (l : Fin 128) :
    ((cfg3.win 0).blk t).view.emb (ix2 p l) = ix2 (row3 t p) l := by
  obtain ⟨e00, e01, e10, e11, e20, e21, e30, e31, e40, e41, e50, e51⟩ := idx_facts3 t
  funext a; apply Fin.ext
  match a with
  | ⟨0, _⟩ => show win3_0.index t (0 : Fin 2) * 8000 + 1 * p.val = t.val * 8000 + p.val; omega
  | ⟨1, _⟩ => show win3_0.index t (1 : Fin 2) * 128 + 1 * l.val = l.val; omega
/-- likewise of the edge features -/
theorem emb3_1 (t : Fin cfg3.N) (p : Fin 8000) (l : Fin 128) :
    ((cfg3.win 1).blk t).view.emb (ix2 p l) = ix2 (row3 t p) l := by
  obtain ⟨e00, e01, e10, e11, e20, e21, e30, e31, e40, e41, e50, e51⟩ := idx_facts3 t
  funext a; apply Fin.ext
  match a with
  | ⟨0, _⟩ => show win3_1.index t (0 : Fin 2) * 8000 + 1 * p.val = t.val * 8000 + p.val; omega
  | ⟨1, _⟩ => show win3_1.index t (1 : Fin 2) * 128 + 1 * l.val = l.val; omega
/-- and of the output. -/
theorem emb3_5 (t : Fin cfg3.N) (p : Fin 8000) (l : Fin 128) :
    ((cfg3.win 5).blk t).view.emb (ix2 p l) = ix2 (row3 t p) l := by
  obtain ⟨e00, e01, e10, e11, e20, e21, e30, e31, e40, e41, e50, e51⟩ := idx_facts3 t
  funext a; apply Fin.ext
  match a with
  | ⟨0, _⟩ => show win3_5.index t (0 : Fin 2) * 8000 + 1 * p.val = t.val * 8000 + p.val; omega
  | ⟨1, _⟩ => show win3_5.index t (1 : Fin 2) * 128 + 1 * l.val = l.val; omega
/-- The first weight's one block is the weight; -/
theorem emb3_2 (t : Fin cfg3.N) (k : Fin 128) (l : Fin 128) :
    ((cfg3.win 2).blk t).view.emb (ix2 k l) = ix2 k l := by
  obtain ⟨e00, e01, e10, e11, e20, e21, e30, e31, e40, e41, e50, e51⟩ := idx_facts3 t
  funext a; apply Fin.ext
  match a with
  | ⟨0, _⟩ => show win3_2.index t (0 : Fin 2) * 128 + 1 * k.val = k.val; omega
  | ⟨1, _⟩ => show win3_2.index t (1 : Fin 2) * 128 + 1 * l.val = l.val; omega
/-- the bias row's one block is the bias row; -/
theorem emb3_3 (t : Fin cfg3.N) (k : Fin 128) :
    ((cfg3.win 3).blk t).view.emb (ix2 (0 : Fin 1) k) = ix2 (0 : Fin 1) k := by
  obtain ⟨e00, e01, e10, e11, e20, e21, e30, e31, e40, e41, e50, e51⟩ := idx_facts3 t
  funext a; apply Fin.ext
  match a with
  | ⟨0, _⟩ => show win3_3.index t (0 : Fin 2) * 1 + 1 * 0 = 0; omega
  | ⟨1, _⟩ => show win3_3.index t (1 : Fin 2) * 128 + 1 * k.val = k.val; omega
/-- the second weight's one block is the weight. -/
theorem emb3_4 (t : Fin cfg3.N) (k : Fin 128) (l : Fin 128) :
    ((cfg3.win 4).blk t).view.emb (ix2 k l) = ix2 k l := by
  obtain ⟨e00, e01, e10, e11, e20, e21, e30, e31, e40, e41, e50, e51⟩ := idx_facts3 t
  funext a; apply Fin.ext
  match a with
  | ⟨0, _⟩ => show win3_4.index t (0 : Fin 2) * 128 + 1 * k.val = k.val; omega
  | ⟨1, _⟩ => show win3_4.index t (1 : Fin 2) * 128 + 1 * l.val = l.val; omega

/-- The blocks the body loads, entry by entry, as entries of the arrays the region found. -/
theorem blk3_0 (c : Dev nD) (t : Fin cfg3.N) (p : Fin 8000) (l : Fin 128) :
    iblk3 (F := Ideal) V c 0 t (ix2 p l) = V c main_v45 (ix2 (row3 t p) l) := by
  show V c main_v45 (((cfg3.win 0).blk t).view.emb (ix2 p l)) = _
  rw [emb3_0]
theorem blk3_1 (c : Dev nD) (t : Fin cfg3.N) (p : Fin 8000) (l : Fin 128) :
    iblk3 (F := Ideal) V c 1 t (ix2 p l) = V c main_v12 (ix2 (row3 t p) l) := by
  show V c main_v12 (((cfg3.win 1).blk t).view.emb (ix2 p l)) = _
  rw [emb3_1]
theorem blk3_2 (c : Dev nD) (t : Fin cfg3.N) (k : Fin 128) (l : Fin 128) :
    iblk3 (F := Ideal) V c 2 t (ix2 k l) = V c main_arg5 (ix2 k l) := by
  show V c main_arg5 (((cfg3.win 2).blk t).view.emb (ix2 k l)) = _
  rw [emb3_2]
theorem blk3_3 (c : Dev nD) (t : Fin cfg3.N) (k : Fin 128) :
    iblk3 (F := Ideal) V c 3 t (ix2 (0 : Fin 1) k) = V c main_v46 (ix2 (0 : Fin 1) k) := by
  show V c main_v46 (((cfg3.win 3).blk t).view.emb (ix2 (0 : Fin 1) k)) = _
  rw [emb3_3]
theorem blk3_4 (c : Dev nD) (t : Fin cfg3.N) (k : Fin 128) (l : Fin 128) :
    iblk3 (F := Ideal) V c 4 t (ix2 k l) = V c main_arg9 (ix2 k l) := by
  show V c main_arg9 (((cfg3.win 4).blk t).view.emb (ix2 k l)) = _
  rw [emb3_4]

/-- What point `t` writes back is block `t` of the messages of the arrays the region found: both contractions
    stay inside the row, so row `p` of the block's result is row `8000·t + p` of the whole expression. -/
theorem flushed3_eq (c : Dev nD) (t : Fin cfg3.N) :
    (dat3 (F := Ideal) V c).flushed 5 t = ((cfg3.win 5).blk t).view.read (Elt Ideal)
      (Cert.Spec.edgeMsg (V c main_v45) (V c main_v12) (V c main_arg5) (fun j => V c main_v46 (ix2 0 j)) (V c main_arg9)) := by
  show (cfg3.win 5).cut (grid3.coords t) ((dat3 V c).after 5 t) = _
  rw [after3_5]
  unfold out3_5
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k3_pay1 (F := Ideal) (iblk3 V c 0 t) (iblk3 V c 2 t) (iblk3 V c 3 t) (iblk3 V c 1 t) (iblk3 V c 4 t) (ix2 p q)
    = Cert.Spec.edgeMsg (V c main_v45) (V c main_v12) (V c main_arg5) (fun j => V c main_v46 (ix2 0 j)) (V c main_arg9) (((cfg3.win 5).blk t).view.emb (ix2 p q))
  rw [k3_pay1_eq, pay_apply, emb3_5]
  simp only [blk3_0, blk3_1, blk3_2, blk3_3, blk3_4]
  rfl

/-- An index of the array is in point `t`'s block iff each coordinate is in the block's range on its axis. -/
theorem mem_blk3 (t : Fin cfg3.N) (i : S640000x128.Idx) :
    i ∈ ((cfg3.win 5).blk t).view.set ↔ ∀ a : Fin 2, win3_5.index t a * S8000x128.size a ≤ (i a).val ∧ (i a).val < win3_5.index t a * S8000x128.size a + S8000x128.size a := by
  show i ∈ ((View.whole main_v47).slice (win3_5.rect t)).set ↔ _
  rw [View.set_slice_whole, Rect.mem_set_unit]
  exact Iff.rfl

/-- Every row lies in some point's block: row `r` in that of point `r / 8000`. -/
theorem cover3 (i : S640000x128.Idx) :
    ∃ t : Fin cfg3.N, (cfg3.win 5).flush t = true ∧ i ∈ ((cfg3.win 5).blk t).view.set := by
  have hi0 : (i 0).val < 640000 := (i 0).isLt
  have hi1 : (i 1).val < 128 := (i 1).isLt
  refine ⟨⟨(i 0).val / 8000, by have : cfg3.N = 80 := rfl; omega⟩, flush3_5 _, ?_⟩
  rw [mem_blk3]
  obtain ⟨e00, e01, e10, e11, e20, e21, e30, e31, e40, e41, e50, e51⟩ := idx_facts3 ⟨(i 0).val / 8000, by have : cfg3.N = 80 := rfl; omega⟩
  intro a
  match a with
  | ⟨0, _⟩ =>
    show win3_5.index _ (0 : Fin 2) * 8000 ≤ (i 0).val ∧ (i 0).val < win3_5.index _ (0 : Fin 2) * 8000 + 8000
    rw [e50]; show (i 0).val / 8000 * 8000 ≤ (i 0).val ∧ (i 0).val < (i 0).val / 8000 * 8000 + 8000; omega
  | ⟨1, _⟩ =>
    show win3_5.index _ (1 : Fin 2) * 128 ≤ (i 1).val ∧ (i 1).val < win3_5.index _ (1 : Fin 2) * 128 + 128
    rw [e51]; omega

/-- After region 3 its output array holds the messages of the arrays the region found. -/
theorem msg_final3 (c : Dev nD) :
    (dat3 (F := Ideal) V c).arrAt 5 cfg3.N
      = Cert.Spec.edgeMsg (V c main_v45) (V c main_v12) (V c main_arg5) (fun j => V c main_v46 (ix2 0 j)) (V c main_arg9) :=
  (dat3 (F := Ideal) V c).arrAt_eq_of_cover 5 _ (fun t _ => flushed3_eq V c t) cover3

end Cert.KernelIdeal.MsgRegion

end
-- ==== Proof.ReadoutRegion.lean ====
/-
  Region 4 (the readout kernel) read as a value: 5 grid points, point t taking rows 4000·t … 4000·t + 3999 of the node
  features with both whole weights and biases, writing the same rows of the readout.  Both contractions (128 and 256
  terms) lie inside a block, so row n of a block is row n of the whole expression.
-/
import proofs.«165084_j44195213476531_1_alg».proof.Proof.Gen.KernelIdeal.Frame
import proofs.«165084_j44195213476531_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ReadoutRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The two contractions of a block, read at an index -/

/-- First contraction, left operand: row axis is the result's row. -/
theorem lhs_hid_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
/-- First contraction, left operand: column axis is the summation index. -/
theorem lhs_hid_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
/-- First contraction, right operand: row axis is the summation index. -/
theorem rhs_hid_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
/-- First contraction, right operand: column axis is the result's column. -/
theorem rhs_hid_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The first product of a block at row `p`, column `k`: the sum over the 128 feature coordinates. -/
theorem hid_matmul_apply (a : FVec Ideal S4000x128 .bf16) (b : FVec Ideal S128x256 .bf16) (p : Fin 4000) (k : Fin 256) :
    matmul dot_S4000x128_S128x256_S4000x256_1_0_0_1_n_n none a b (constant (F := Ideal) S4000x256 .f32 0x00000000#32) (ix2 p k)
      = ∑ l : Fin 128, a (ix2 p l) * b (ix2 l k) := by
  simp only [matmul]
  rw [Ideal.matmul_constant_zero_apply, ← Equiv.sum_comp (contrEquiv1 dot_S4000x128_S128x256_S4000x256_1_0_0_1_n_n 128 rfl rfl).symm]
  refine Finset.sum_congr rfl fun l _ => ?_
  have hk := contrEquiv1_symm_val dot_S4000x128_S128x256_S4000x256_1_0_0_1_n_n 128 rfl rfl l
  have el : dot_S4000x128_S128x256_S4000x256_1_0_0_1_n_n.lhsIdx (ix2 p k) ((contrEquiv1 dot_S4000x128_S128x256_S4000x256_1_0_0_1_n_n 128 rfl rfl).symm l) = ix2 p l := funext fun a => Fin.ext (by
    match a with
    | ⟨0, _⟩ => exact lhs_hid_0 _ _
    | ⟨1, _⟩ => exact (lhs_hid_1 _ _).trans hk)
  have er : dot_S4000x128_S128x256_S4000x256_1_0_0_1_n_n.rhsIdx (ix2 p k) ((contrEquiv1 dot_S4000x128_S128x256_S4000x256_1_0_0_1_n_n 128 rfl rfl).symm l) = ix2 l k := funext fun a => Fin.ext (by
    match a with
    | ⟨0, _⟩ => exact (rhs_hid_0 _ _).trans hk
    | ⟨1, _⟩ => exact rhs_hid_1 _ _)
  rw [el, er]

/-- Second contraction, left operand: row axis is the result's row. -/
theorem lhs_out_0 (i : S4000x4.Idx) (q : dot_S4000x256_S256x4_S4000x4_1_0_0_1_n_n.contr.Idx) :
    (dot_S4000x256_S256x4_S4000x4_1_0_0_1_n_n.lhsIdx i q 0).val = (i 0).val := by
  unfold DotDims.lhsIdx
  rw [dif_neg (show ¬(0 : Fin S4000x256.rank) ∈ dot_S4000x256_S256x4_S4000x4_1_0_0_1_n_n.lhsBatch by decide), dif_pos (show (0 : Fin S4000x256.rank) ∈ dot_S4000x256_S256x4_S4000x4_1_0_0_1_n_n.lhsNonContracting by decide)]
  rfl
/-- Second contraction, left operand: column axis is the summation index. -/
theorem lhs_out_1 (i : S4000x4.Idx) (q : dot_S4000x256_S256x4_S4000x4_1_0_0_1_n_n.contr.Idx) :
    (dot_S4000x256_S256x4_S4000x4_1_0_0_1_n_n.lhsIdx i q 1).val = (q ⟨0, by decide⟩).val :=
  dot_S4000x256_S256x4_S4000x4_1_0_0_1_n_n.lhsIdx_val_of_single rfl i q
/-- Second contraction, right operand: row axis is the summation index. -/
theorem rhs_out_0 (i : S4000x4.Idx) (q : dot_S4000x256_S256x4_S4000x4_1_0_0_1_n_n.contr.Idx) :
    (dot_S4000x256_S256x4_S4000x4_1_0_0_1_n_n.rhsIdx i q 0).val = (q ⟨0, by decide⟩).val :=
  dot_S4000x256_S256x4_S4000x4_1_0_0_1_n_n.rhsIdx_val_of_single rfl i q
/-- Second contraction, right operand: column axis is the result's column. -/
theorem rhs_out_1 (i : S4000x4.Idx) (q : dot_S4000x256_S256x4_S4000x4_1_0_0_1_n_n.contr.Idx) :
    (dot_S4000x256_S256x4_S4000x4_1_0_0_1_n_n.rhsIdx i q 1).val = (i 1).val := by
  unfold DotDims.rhsIdx
  rw [dif_neg (show ¬(1 : Fin S256x4.rank) ∈ dot_S4000x256_S256x4_S4000x4_1_0_0_1_n_n.rhsBatch by decide), dif_pos (show (1 : Fin S256x4.rank) ∈ dot_S4000x256_S256x4_S4000x4_1_0_0_1_n_n.rhsNonContracting by decide)]
  rfl

/-- The second product of a block at row `p`, column `q`: the sum over the 256 hidden coordinates. -/
theorem out_matmul_apply (a : FVec Ideal S4000x256 .bf16) (b : FVec Ideal S256x4 .bf16) (p : Fin 4000) (q : Fin 4) :
    matmul dot_S4000x256_S256x4_S4000x4_1_0_0_1_n_n none a b (constant (F := Ideal) S4000x4 .f32 0x00000000#32) (ix2 p q)
      = ∑ k : Fin 256, a (ix2 p k) * b (ix2 k q) := by
  simp only [matmul]
  rw [Ideal.matmul_constant_zero_apply, ← Equiv.sum_comp (contrEquiv1 dot_S4000x256_S256x4_S4000x4_1_0_0_1_n_n 256 rfl rfl).symm]
  refine Finset.sum_congr rfl fun k _ => ?_
  have hk := contrEquiv1_symm_val dot_S4000x256_S256x4_S4000x4_1_0_0_1_n_n 256 rfl rfl k
  have el : dot_S4000x256_S256x4_S4000x4_1_0_0_1_n_n.lhsIdx (ix2 p q) ((contrEquiv1 dot_S4000x256_S256x4_S4000x4_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S4000x256_S256x4_S4000x4_1_0_0_1_n_n.rhsIdx (ix2 p q) ((contrEquiv1 dot_S4000x256_S256x4_S4000x4_1_0_0_1_n_n 256 rfl rfl).symm k) = ix2 k q := funext fun a => Fin.ext (by
    match a with
    | ⟨0, _⟩ => exact (rhs_out_0 _ _).trans hk
    | ⟨1, _⟩ => exact rhs_out_1 _ _)
  rw [el, er]

/-- The vector `tanh` at an index is the extended-real `tanh` of the element. -/
theorem tanh_apply {s : Shape} {φ : FTy} (a : FVec Ideal s φ) (i : s.Idx) : (tanh a : FVec Ideal s φ) i = Ideal.tanh (a i) := rfl

/-- THE PAYLOAD AT AN INDEX: row `p`, column `q` of what a point stores is the readout of row `p` of its block of node
    features: the 256 hidden units, each `tanh` of a 128-term sum plus its bias, contracted with row `q` of the second
    weight, plus the second bias. The format changes are the identity on extended reals. -/
theorem pay_apply (x0 : Vec Ideal S4000x128 .f32) (x3 : Vec Ideal S256x128 .f32) (x7 : Vec Ideal S1x256 .f32)
    (x13 : Vec Ideal S4x256 .f32) (x17 : Vec Ideal S1x4 .f32) (p : Fin 4000) (q : Fin 4) :
    k4_pay1 x0 x3 x7 x13 x17 (ix2 p q)
      = (∑ k : Fin 256, Ideal.tanh ((∑ l : Fin 128, x0 (ix2 p l) * x3 (ix2 k l)) + x7 (ix2 0 k)) * x13 (ix2 q k)) + x17 (ix2 0 q) := by
  unfold k4_pay1
  simp only [shapeCast_self]
  rw [addf_apply, out_matmul_apply, broadcastTo_1b_ab_apply]
  congr 1
  refine Finset.sum_congr rfl fun k _ => ?_
  rw [truncf_apply, transpose_ix2_apply, truncf_apply]
  congr 1
  rw [tanh_apply, addf_apply, hid_matmul_apply, broadcastTo_1b_ab_apply]
  congr 2
  refine Finset.sum_congr rfl fun l _ => ?_
  rw [truncf_apply, transpose_ix2_apply, truncf_apply]

/-! ## From blocks to the array -/

theorem hz : (![0, 0] : Fin 2 → Nat) = fun _ => 0 := funext fun a => by fin_cases a <;> rfl

/-- The printed index maps, decided over the five grid points: the node features and the output move together, block
    `t` at point `t`; the weights and biases are whole. -/
theorem idx_facts : ∀ t : Fin cfg4.N, t.val < 5
    ∧ win4_5.index t (0 : Fin 2) = t.val ∧ win4_5.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- Every block row is some point's. -/
theorem idx_onto : ∀ q0 : Fin 5, ∃ t : Fin cfg4.N, t.val = q0.val :=
  (by decide +kernel : ∀ q0 : Fin 5, ∃ t : Fin grid4.N, t.val = q0.val)

/-- Row `p` of point `t`'s block is row `4000·t + p` of the array. -/
def row (t : Fin cfg4.N) (p : Fin 4000) : Fin 20000 :=
  ⟨t.val * 4000 + p.val, by have := (idx_facts t).1; have := p.isLt; omega⟩

/-- The node-feature block of point `t` at `(p, l)` is the array at `(4000·t + p, l)`. -/
theorem blk0_apply (c : Dev nD) (t : Fin cfg4.N) (p : Fin 4000) (l : Fin 128) :
    iblk4 (F := Ideal) V c 0 t (ix2 p l) = V c main_v51 (ix2 (row t p) l) := by
  obtain ⟨e, e50, e51, e00, e01, -⟩ := idx_facts t
  show V c main_v51 (((cfg4.win 0).blk t).view.emb (ix2 p l)) = V c main_v51 (ix2 (row t p) l)
  refine congrArg _ (funext fun a => Fin.ext ?_)
  match a with
  | ⟨0, _⟩ => show win4_0.index t (0 : Fin 2) * 4000 + 1 * p.val = t.val * 4000 + p.val; omega
  | ⟨1, _⟩ => show win4_0.index t (1 : Fin 2) * 128 + 1 * l.val = l.val; omega

/-- The first weight's block is the whole weight. -/
theorem blk1_apply (c : Dev nD) (t : Fin cfg4.N) (k : Fin 256) (l : Fin 128) :
    iblk4 (F := Ideal) V c 1 t (ix2 k l) = V c main_arg10 (ix2 k l) := by
  obtain ⟨e, e50, e51, e00, e01, e10, e11, -⟩ := idx_facts t
  show V c main_arg10 (((cfg4.win 1).blk t).view.emb (ix2 k l)) = V c main_arg10 (ix2 k l)
  refine congrArg _ (funext fun a => Fin.ext ?_)
  match a with
  | ⟨0, _⟩ => show win4_1.index t (0 : Fin 2) * 256 + 1 * k.val = k.val; omega
  | ⟨1, _⟩ => show win4_1.index t (1 : Fin 2) * 128 + 1 * l.val = l.val; omega

/-- The first bias's block is the whole bias row. -/
theorem blk2_apply (c : Dev nD) (t : Fin cfg4.N) (z : Fin 1) (k : Fin 256) :
    iblk4 (F := Ideal) V c 2 t (ix2 z k) = V c main_v52 (ix2 z k) := by
  obtain ⟨e, e50, e51, e00, e01, e10, e11, e20, e21, -⟩ := idx_facts t
  show V c main_v52 (((cfg4.win 2).blk t).view.emb (ix2 z k)) = V c main_v52 (ix2 z k)
  refine congrArg _ (funext fun a => Fin.ext ?_)
  match a with
  | ⟨0, _⟩ => show win4_2.index t (0 : Fin 2) * 1 + 1 * z.val = z.val; omega
  | ⟨1, _⟩ => show win4_2.index t (1 : Fin 2) * 256 + 1 * k.val = k.val; omega

/-- The second weight's block is the whole weight. -/
theorem blk3_apply (c : Dev nD) (t : Fin cfg4.N) (q : Fin 4) (k : Fin 256) :
    iblk4 (F := Ideal) V c 3 t (ix2 q k) = V c main_arg12 (ix2 q k) := by
  obtain ⟨e, e50, e51, e00, e01, e10, e11, e20, e21, e30, e31, -⟩ := idx_facts t
  show V c main_arg12 (((cfg4.win 3).blk t).view.emb (ix2 q k)) = V c main_arg12 (ix2 q k)
  refine congrArg _ (funext fun a => Fin.ext ?_)
  match a with
  | ⟨0, _⟩ => show win4_3.index t (0 : Fin 2) * 4 + 1 * q.val = q.val; omega
  | ⟨1, _⟩ => show win4_3.index t (1 : Fin 2) * 256 + 1 * k.val = k.val; omega

/-- The second bias's block is the whole bias row. -/
theorem blk4_apply (c : Dev nD) (t : Fin cfg4.N) (z : Fin 1) (q : Fin 4) :
    iblk4 (F := Ideal) V c 4 t (ix2 z q) = V c main_v53 (ix2 z q) := by
  obtain ⟨e, e50, e51, e00, e01, e10, e11, e20, e21, e30, e31, e40, e41⟩ := idx_facts t
  show V c main_v53 (((cfg4.win 4).blk t).view.emb (ix2 z q)) = V c main_v53 (ix2 z q)
  refine congrArg _ (funext fun a => Fin.ext ?_)
  match a with
  | ⟨0, _⟩ => show win4_4.index t (0 : Fin 2) * 1 + 1 * z.val = z.val; omega
  | ⟨1, _⟩ => show win4_4.index t (1 : Fin 2) * 4 + 1 * q.val = q.val; omega

/-- The output block of point `t` sits at rows `4000·t …` of the output array. -/
theorem emb5_apply (t : Fin cfg4.N) (p : Fin 4000) (q : Fin 4) :
    ((cfg4.win 5).blk t).view.emb (ix2 p q) = ix2 (row t p) q := by
  obtain ⟨e, e50, e51, -⟩ := idx_facts t
  refine funext fun a => Fin.ext ?_
  match a with
  | ⟨0, _⟩ => show win4_5.index t (0 : Fin 2) * 4000 + 1 * p.val = t.val * 4000 + p.val; omega
  | ⟨1, _⟩ => show win4_5.index t (1 : Fin 2) * 4 + 1 * q.val = q.val; omega

/-- The readout of the arrays region 4 finds. -/
abbrev G (c : Dev nD) : FVec Ideal S20000x4 .f32 :=
  Cert.Spec.readout (V c main_v51) (V c main_arg10) (fun j => V c main_v52 (ix2 0 j)) (V c main_arg12) (fun j => V c main_v53 (ix2 0 j))

/-- WHAT POINT `t` WRITES BACK is block `t` of the readout. -/
theorem flushed_eq (c : Dev nD) (t : Fin cfg4.N) :
    (dat4 (F := Ideal) V c).flushed 5 t = ((cfg4.win 5).blk t).view.read (Elt Ideal) (G V c) := by
  show (cfg4.win 5).cut (grid4.coords t) ((dat4 (F := Ideal) V c).after 5 t) = _
  rw [after4_5]
  unfold out4_5
  rw [View.canon_unit_zero hz]
  simp only [View.ld_unit_zero (S := S4000x128) hz, View.ld_unit_zero (S := S256x128) hz, View.ld_unit_zero (S := S1x256) hz,
    View.ld_unit_zero (S := S4x256) hz, View.ld_unit_zero (S := S1x4) hz]
  refine funext fun (j : S4000x4.Idx) => ?_
  obtain ⟨p, q, rfl⟩ : ∃ (p : Fin 4000) (q : Fin 4), j = ix2 p q := ⟨j 0, j 1, eq_ix2 j⟩
  show k4_pay1 (iblk4 (F := Ideal) V c 0 t) (iblk4 (F := Ideal) V c 1 t) (iblk4 (F := Ideal) V c 2 t) (iblk4 (F := Ideal) V c 3 t) (iblk4 (F := Ideal) V c 4 t) (ix2 p q)
    = G V c (((cfg4.win 5).blk t).view.emb (ix2 p q))
  rw [pay_apply, emb5_apply]
  simp only [blk0_apply, blk1_apply, blk2_apply, blk3_apply, blk4_apply]
  rfl

/-- An index of the output array is in point `t`'s block iff each coordinate is in the block's range on its axis. -/
theorem mem_blk (t : Fin cfg4.N) (i : S20000x4.Idx) :
    i ∈ ((cfg4.win 5).blk t).view.set ↔ ∀ a : Fin 2, win4_5.index t a * S4000x4.size a ≤ (i a).val ∧ (i a).val < win4_5.index t a * S4000x4.size a + S4000x4.size a := by
  show i ∈ ((View.whole main_v54).slice (win4_5.rect t)).set ↔ _
  rw [View.set_slice_whole, Rect.mem_set_unit]
  exact Iff.rfl

/-- Row `r` of the output lies in the block of point `r / 4000`, and every point flushes. -/
theorem cover (i : S20000x4.Idx) :
    ∃ t : Fin cfg4.N, (cfg4.win 5).flush t = true ∧ i ∈ ((cfg4.win 5).blk t).view.set := by
  have hi0 : (i 0).val < 20000 := (i 0).isLt
  have hi1 : (i 1).val < 4 := (i 1).isLt
  obtain ⟨t, ht⟩ := idx_onto ⟨(i 0).val / 4000, by omega⟩
  have ht' : t.val = (i 0).val / 4000 := ht
  obtain ⟨e, e50, e51, -⟩ := idx_facts t
  refine ⟨t, flush4_5 t, ?_⟩
  rw [mem_blk]
  intro a
  match a with
  | ⟨0, _⟩ => show win4_5.index t (0 : Fin 2) * 4000 ≤ (i 0).val ∧ (i 0).val < win4_5.index t (0 : Fin 2) * 4000 + 4000; omega
  | ⟨1, _⟩ => show win4_5.index t (1 : Fin 2) * 4 ≤ (i 1).val ∧ (i 1).val < win4_5.index t (1 : Fin 2) * 4 + 4; omega

/-- After region 4 its output array holds the readout of the arrays the region found. -/
theorem readout_final (c : Dev nD) :
    (dat4 (F := Ideal) V c).arrAt 5 cfg4.N
      = Cert.Spec.readout (V c main_v51) (V c main_arg10) (fun j => V c main_v52 (ix2 0 j)) (V c main_arg12) (fun j => V c main_v53 (ix2 0 j)) :=
  (dat4 (F := Ideal) V c).arrAt_eq_of_cover 5 (G V c) (fun t _ => flushed_eq V c t) (cover)

end Cert.KernelIdeal.ReadoutRegion

end
-- ==== Proof.KernelWalk.lean ====
/-
  The kernel program's result, read back through @main.  Between the five kernel regions @main runs the same irregular
  host operations as the reference — the embedding rows, the rows an edge reads from its source node, the segment sum over
  destination nodes, the pooling over graphs — on arrays that only the integer inputs and the regions' results feed.
  Walking the buffer contents back from the return to the launch, region by region: each region's inputs are what the
  host operations before it left (the previous round's node features gathered by source node; the edge features; the
  weights and biases as launched, a bias reshaped to one row), each region's output array is the dense function of
  Spec.lean of those inputs (FeatRegion, MsgRegion, ReadoutRegion), and the result is the network of Spec.lean over
  the kernel program's own irregular pieces.
-/
import proofs.«165084_j44195213476531_1_alg».proof.Proof.Gen.KernelIdeal.Frame
import proofs.«165084_j44195213476531_1_alg».proof.Proof.Spec
import proofs.«165084_j44195213476531_1_alg».proof.Proof.FeatRegion
import proofs.«165084_j44195213476531_1_alg».proof.Proof.MsgRegion
import proofs.«165084_j44195213476531_1_alg».proof.Proof.ReadoutRegion
import Idealize.ShloMosaic.Lib.StableHlo.Run
import Idealize.ShloMosaic.Lib.ValueLayout
import Idealize.ShloMosaic.PureOps.Ideal

set_option maxRecDepth 16384

noncomputable section

namespace Cert.KernelIdeal.Walk

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg) (c : Dev nD)

/-! ## Reading a buffer at a boundary: a region leaves every buffer that is not one of its arrays as it found it -/

theorem W0_at {b : Ref sig .tc} : W0 m ρ c (no_index (Proc.devRef .tc b)) = m ((c : Thread nD τ).loc b) := rfl
theorem W2_of_ne' {b : Ref sig .tc} (hb : ∀ w, Pipeline.arrRef spec0 w ≠ b) :
    W2 m ρ c (no_index (Proc.devRef .tc b)) = W1 m ρ c (Proc.devRef .tc b) := W2_of_ne m ρ c b hb
theorem W4_of_ne' {b : Ref sig .tc} (hb : ∀ w, Pipeline.arrRef spec1 w ≠ b) :
    W4 m ρ c (no_index (Proc.devRef .tc b)) = W3 m ρ c (Proc.devRef .tc b) := W4_of_ne m ρ c b hb
theorem W6_of_ne' {b : Ref sig .tc} (hb : ∀ w, Pipeline.arrRef spec2 w ≠ b) :
    W6 m ρ c (no_index (Proc.devRef .tc b)) = W5 m ρ c (Proc.devRef .tc b) := W6_of_ne m ρ c b hb
theorem W8_of_ne' {b : Ref sig .tc} (hb : ∀ w, Pipeline.arrRef spec3 w ≠ b) :
    W8 m ρ c (no_index (Proc.devRef .tc b)) = W7 m ρ c (Proc.devRef .tc b) := W8_of_ne m ρ c b hb
theorem W10_of_ne' {b : Ref sig .tc} (hb : ∀ w, Pipeline.arrRef spec4 w ≠ b) :
    W10 m ρ c (no_index (Proc.devRef .tc b)) = W9 m ρ c (Proc.devRef .tc b) := W10_of_ne m ρ c b hb

/-- A region leaves an INPUT array as it found it: the edge features and the two weight matrices through regions 1 and 2. -/
theorem W4_v12_in : W4 m ρ c (no_index (Proc.devRef .tc main_v12)) = W3 m ρ c (Proc.devRef .tc main_v12) :=
  (W4_arr m ρ c 1).trans (((dat1 (V3 m ρ) c).arrAt_in 1 rfl _).trans (A_eq1 (V3 m ρ) c 1))
theorem W4_arg5_in : W4 m ρ c (no_index (Proc.devRef .tc main_arg5)) = W3 m ρ c (Proc.devRef .tc main_arg5) :=
  (W4_arr m ρ c 2).trans (((dat1 (V3 m ρ) c).arrAt_in 2 rfl _).trans (A_eq1 (V3 m ρ) c 2))
theorem W4_arg9_in : W4 m ρ c (no_index (Proc.devRef .tc main_arg9)) = W3 m ρ c (Proc.devRef .tc main_arg9) :=
  (W4_arr m ρ c 4).trans (((dat1 (V3 m ρ) c).arrAt_in 4 rfl _).trans (A_eq1 (V3 m ρ) c 4))
theorem W6_v12_in : W6 m ρ c (no_index (Proc.devRef .tc main_v12)) = W5 m ρ c (Proc.devRef .tc main_v12) :=
  (W6_arr m ρ c 1).trans (((dat2 (V5 m ρ) c).arrAt_in 1 rfl _).trans (A_eq2 (V5 m ρ) c 1))
theorem W6_arg5_in : W6 m ρ c (no_index (Proc.devRef .tc main_arg5)) = W5 m ρ c (Proc.devRef .tc main_arg5) :=
  (W6_arr m ρ c 2).trans (((dat2 (V5 m ρ) c).arrAt_in 2 rfl _).trans (A_eq2 (V5 m ρ) c 2))
theorem W6_arg9_in : W6 m ρ c (no_index (Proc.devRef .tc main_arg9)) = W5 m ρ c (Proc.devRef .tc main_arg9) :=
  (W6_arr m ρ c 4).trans (((dat2 (V5 m ρ) c).arrAt_in 4 rfl _).trans (A_eq2 (V5 m ρ) c 4))

open Lean.Parser.Tactic in
/-- Rewrites a buffer's contents at a boundary back towards the launch: through a host stretch to the operation that
    wrote it (or to the contents before the stretch), through a region it is no array of to the contents at its entry;
    it stops at a region's output array, for which the given equations are used. -/
syntax "walk" ("[" (simpStar <|> simpErase <|> simpLemma),* "]")? : tactic
macro_rules
  | `(tactic| walk) => `(tactic| simp (disch := decide) only [W1, W3, W5, W7, W9, W11, V1, V3, V5, V7, V9,
      hostOps0, hostOps1, hostOps2, hostOps3, hostOps4, hostOps5,
      after_cons, after_nil,
      nullary_result', unary_result', binary_result', ternary_result', quaternary_result', reshape_result',
      nullary_result_ne', unary_result_ne', binary_result_ne', ternary_result_ne', quaternary_result_ne', reshape_result_ne',
      W2_of_ne', W4_of_ne', W6_of_ne', W8_of_ne', W10_of_ne', W0_at,
      W4_v12_in, W4_arg5_in, W4_arg9_in, W6_v12_in, W6_arg5_in, W6_arg9_in])
  | `(tactic| walk [$ts,*]) => `(tactic| simp (disch := decide) only [W1, W3, W5, W7, W9, W11, V1, V3, V5, V7, V9,
      hostOps0, hostOps1, hostOps2, hostOps3, hostOps4, hostOps5,
      after_cons, after_nil,
      nullary_result', unary_result', binary_result', ternary_result', quaternary_result', reshape_result',
      nullary_result_ne', unary_result_ne', binary_result_ne', ternary_result_ne', quaternary_result_ne', reshape_result_ne',
      W2_of_ne', W4_of_ne', W6_of_ne', W8_of_ne', W10_of_ne', W0_at,
      W4_v12_in, W4_arg5_in, W4_arg9_in, W6_v12_in, W6_arg5_in, W6_arg9_in, $ts,*])

/-- Each region's output array at its exit is what its pipeline leaves. -/
theorem W2_v12 : W2 m ρ c (Proc.devRef .tc main_v12) = (dat0 (V1 m ρ) c).arrAt 3 cfg0.N := W2_arr m ρ c 3
theorem W4_v21 : W4 m ρ c (Proc.devRef .tc main_v21) = (dat1 (V3 m ρ) c).arrAt 5 cfg1.N := W4_arr m ρ c 5
theorem W6_v34 : W6 m ρ c (Proc.devRef .tc main_v34) = (dat2 (V5 m ρ) c).arrAt 5 cfg2.N := W6_arr m ρ c 5
theorem W8_v47 : W8 m ρ c (Proc.devRef .tc main_v47) = (dat3 (V7 m ρ) c).arrAt 5 cfg3.N := W8_arr m ρ c 5
theorem W10_v54 : W10 m ρ c (Proc.devRef .tc main_v54) = (dat4 (V9 m ρ) c).arrAt 5 cfg4.N := W10_arr m ρ c 5

/-! ## The irregular pieces, as the kernel program applies them -/

/-- The embedded nodes: node n takes the table's row Z[n] (a negative index wrapped by the table's length). -/
def embedded : FVec Ideal S20000x128 .f32 :=
  Host.gather gather_S101x128_S20000x1_S20000x128_1_0_n_n_0_1_1128 (m ((c : Thread nD τ).loc main_arg4))
    (broadcastInDim S20000x1 ![0] bcast_S20000_S20000x1_0
      (select (cmpi .slt (m ((c : Thread nD τ).loc main_arg0)) (broadcastInDim S20000 ![] bcast_S_S20000 (constantI S_ 32 0#32)))
        (addi (m ((c : Thread nD τ).loc main_arg0)) (broadcastInDim S20000 ![] bcast_S_S20000 (constantI S_ 32 101#32)))
        (m ((c : Thread nD τ).loc main_arg0))))
/-- The edges' source nodes and destination nodes: the two rows of the edge list. -/
def src : IVec S640000 32 :=
  shapeCast S640000 (extractStridedSlice S1x640000 ![0, 0] (m ((c : Thread nD τ).loc main_arg1)) slices_S2x640000_S1x640000_0_0) shapeCasts_S1x640000_S640000
def dst : IVec S640000 32 :=
  shapeCast S640000 (extractStridedSlice S1x640000 ![1, 0] (m ((c : Thread nD τ).loc main_arg1)) slices_S2x640000_S1x640000_1_0) shapeCasts_S1x640000_S640000
/-- The rows the edges read: edge e takes row src[e] of the node features (a negative index wrapped). -/
def rows (C : FVec Ideal S20000x128 .f32) : FVec Ideal S640000x128 .f32 :=
  Host.gather gather_S20000x128_S640000x1_S640000x128_1_0_n_n_0_1_1128 C
    (broadcastInDim S640000x1 ![0] bcast_S640000_S640000x1_0
      (select (cmpi .slt (src m c) (broadcastInDim S640000 ![] bcast_S_S640000 (constantI S_ 32 0#32)))
        (addi (src m c) (broadcastInDim S640000 ![] bcast_S_S640000 (constantI S_ 32 20000#32)))
        (src m c)))
/-- The segment sum: node n receives the messages of the edges e with dst[e] = n. -/
def segsum (M : FVec Ideal S640000x128 .f32) : FVec Ideal S20000x128 .f32 :=
  Host.scatterAdd scatter_S20000x128_S640000x1_S640000x128_1_0_0_1
    (broadcastInDim S20000x128 ![] bcast_S_S20000x128 (constant S_ .f32 0x00000000#32))
    (broadcastInDim S640000x1 ![0] bcast_S640000_S640000x1_0 (dst m c)) M
/-- The pooling: graph g receives the readouts of its nodes. -/
def pool (h : FVec Ideal S20000x4 .f32) : FVec Ideal S256x4 .f32 :=
  Host.scatterAdd scatter_S256x4_S20000x1_S20000x4_1_0_0_1
    (broadcastInDim S256x4 ![] bcast_S_S256x4 (constant S_ .f32 0x00000000#32))
    (broadcastInDim S20000x1 ![0] bcast_S20000_S20000x1_0 (m ((c : Thread nD τ).loc main_arg3))) h

/-- A bias as a row. -/
abbrev row {n : Nat} (b : FVec Ideal ⟨1, ![n]⟩ .f32) : Fin n → EReal := fun j => b (ix1 j)

/-- The edge features, and the node features after one, two, three rounds. -/
abbrev D : FVec Ideal S640000x128 .f32 := Cert.Spec.edgeFeat (m ((c : Thread nD τ).loc main_arg2)) (m ((c : Thread nD τ).loc main_arg7)) (row (m ((c : Thread nD τ).loc main_arg8)))
abbrev C1 : FVec Ideal S20000x128 .f32 :=
  Cert.Spec.round (rows m c) (segsum m c) (D m c) (m ((c : Thread nD τ).loc main_arg5)) (row (m ((c : Thread nD τ).loc main_arg6))) (m ((c : Thread nD τ).loc main_arg9)) (embedded m c)
abbrev C2 : FVec Ideal S20000x128 .f32 :=
  Cert.Spec.round (rows m c) (segsum m c) (D m c) (m ((c : Thread nD τ).loc main_arg5)) (row (m ((c : Thread nD τ).loc main_arg6))) (m ((c : Thread nD τ).loc main_arg9)) (C1 m c)
abbrev C3 : FVec Ideal S20000x128 .f32 :=
  Cert.Spec.round (rows m c) (segsum m c) (D m c) (m ((c : Thread nD τ).loc main_arg5)) (row (m ((c : Thread nD τ).loc main_arg6))) (m ((c : Thread nD τ).loc main_arg9)) (C2 m c)

/-! ## Region 0: the edge features -/

theorem arg2_at1 : V1 m ρ c main_arg2 = m ((c : Thread nD τ).loc main_arg2) := by walk
theorem arg7_at1 : V1 m ρ c main_arg7 = m ((c : Thread nD τ).loc main_arg7) := by walk
theorem v11_at1 : V1 m ρ c main_v11 = shapeCast S1x128 (m ((c : Thread nD τ).loc main_arg8)) shapeCasts_S128_S1x128 := by
  walk; try rfl
theorem row11 : (fun j : Fin 128 => V1 m ρ c main_v11 (ix2 0 j)) = row (m ((c : Thread nD τ).loc main_arg8)) := by
  rw [v11_at1]; funext j; exact shapeCast_a_1a_apply _ _ 0 j

theorem feat_at : W2 m ρ c (Proc.devRef .tc main_v12) = D m c := by
  rw [W2_v12, Cert.KernelIdeal.FeatRegion.feat_final (V1 m ρ) c, row11, arg2_at1, arg7_at1]

/-! ## Region 1: the first round's messages -/

theorem v19_at3 : V3 m ρ c main_v19 = rows m c (embedded m c) := by walk; try rfl
theorem v12_at3 : V3 m ρ c main_v12 = D m c := by walk [feat_at m ρ c]
theorem arg5_at3 : V3 m ρ c main_arg5 = m ((c : Thread nD τ).loc main_arg5) := by walk
theorem arg9_at3 : V3 m ρ c main_arg9 = m ((c : Thread nD τ).loc main_arg9) := by walk
theorem v20_at3 : V3 m ρ c main_v20 = shapeCast S1x128 (m ((c : Thread nD τ).loc main_arg6)) shapeCasts_S128_S1x128 := by
  walk; try rfl
theorem row20 : (fun j : Fin 128 => V3 m ρ c main_v20 (ix2 0 j)) = row (m ((c : Thread nD τ).loc main_arg6)) := by
  rw [v20_at3]; funext j; exact shapeCast_a_1a_apply _ _ 0 j

theorem msg1_at : W4 m ρ c (Proc.devRef .tc main_v21)
    = Cert.Spec.edgeMsg (rows m c (embedded m c)) (D m c) (m ((c : Thread nD τ).loc main_arg5)) (row (m ((c : Thread nD τ).loc main_arg6))) (m ((c : Thread nD τ).loc main_arg9)) := by
  rw [W4_v21, Cert.KernelIdeal.MsgRegion.msg_final1 (V3 m ρ) c, row20, v19_at3, v12_at3, arg5_at3, arg9_at3]

/-! ## Region 2: the second round's messages -/

theorem v32_at5 : V5 m ρ c main_v32 = rows m c (C1 m c) := by walk [msg1_at m ρ c]; try rfl
theorem v12_at5 : V5 m ρ c main_v12 = D m c := by walk [feat_at m ρ c]
theorem arg5_at5 : V5 m ρ c main_arg5 = m ((c : Thread nD τ).loc main_arg5) := by walk
theorem arg9_at5 : V5 m ρ c main_arg9 = m ((c : Thread nD τ).loc main_arg9) := by walk
theorem v33_at5 : V5 m ρ c main_v33 = shapeCast S1x128 (m ((c : Thread nD τ).loc main_arg6)) shapeCasts_S128_S1x128 := by
  walk; try rfl
theorem row33 : (fun j : Fin 128 => V5 m ρ c main_v33 (ix2 0 j)) = row (m ((c : Thread nD τ).loc main_arg6)) := by
  rw [v33_at5]; funext j; exact shapeCast_a_1a_apply _ _ 0 j

theorem msg2_at : W6 m ρ c (Proc.devRef .tc main_v34)
    = Cert.Spec.edgeMsg (rows m c (C1 m c)) (D m c) (m ((c : Thread nD τ).loc main_arg5)) (row (m ((c : Thread nD τ).loc main_arg6))) (m ((c : Thread nD τ).loc main_arg9)) := by
  rw [W6_v34, Cert.KernelIdeal.MsgRegion.msg_final2 (V5 m ρ) c, row33, v32_at5, v12_at5, arg5_at5, arg9_at5]

/-! ## Region 3: the third round's messages -/

theorem v45_at7 : V7 m ρ c main_v45 = rows m c (C2 m c) := by walk [msg1_at m ρ c, msg2_at m ρ c]; try rfl
theorem v12_at7 : V7 m ρ c main_v12 = D m c := by walk [feat_at m ρ c]
theorem arg5_at7 : V7 m ρ c main_arg5 = m ((c : Thread nD τ).loc main_arg5) := by walk
theorem arg9_at7 : V7 m ρ c main_arg9 = m ((c : Thread nD τ).loc main_arg9) := by walk
theorem v46_at7 : V7 m ρ c main_v46 = shapeCast S1x128 (m ((c : Thread nD τ).loc main_arg6)) shapeCasts_S128_S1x128 := by
  walk; try rfl
theorem row46 : (fun j : Fin 128 => V7 m ρ c main_v46 (ix2 0 j)) = row (m ((c : Thread nD τ).loc main_arg6)) := by
  rw [v46_at7]; funext j; exact shapeCast_a_1a_apply _ _ 0 j

theorem msg3_at : W8 m ρ c (Proc.devRef .tc main_v47)
    = Cert.Spec.edgeMsg (rows m c (C2 m c)) (D m c) (m ((c : Thread nD τ).loc main_arg5)) (row (m ((c : Thread nD τ).loc main_arg6))) (m ((c : Thread nD τ).loc main_arg9)) := by
  rw [W8_v47, Cert.KernelIdeal.MsgRegion.msg_final3 (V7 m ρ) c, row46, v45_at7, v12_at7, arg5_at7, arg9_at7]

/-! ## Region 4: the readout -/

theorem v51_at9 : V9 m ρ c main_v51 = C3 m c := by walk [msg1_at m ρ c, msg2_at m ρ c, msg3_at m ρ c]; try rfl
theorem arg10_at9 : V9 m ρ c main_arg10 = m ((c : Thread nD τ).loc main_arg10) := by walk
theorem arg12_at9 : V9 m ρ c main_arg12 = m ((c : Thread nD τ).loc main_arg12) := by walk
theorem v52_at9 : V9 m ρ c main_v52 = shapeCast S1x256 (m ((c : Thread nD τ).loc main_arg11)) shapeCasts_S256_S1x256 := by
  walk; try rfl
theorem v53_at9 : V9 m ρ c main_v53 = shapeCast S1x4 (m ((c : Thread nD τ).loc main_arg13)) shapeCasts_S4_S1x4 := by
  walk; try rfl
theorem row52 : (fun j : Fin 256 => V9 m ρ c main_v52 (ix2 0 j)) = row (m ((c : Thread nD τ).loc main_arg11)) := by
  rw [v52_at9]; funext j; exact shapeCast_a_1a_apply _ _ 0 j
theorem row53 : (fun j : Fin 4 => V9 m ρ c main_v53 (ix2 0 j)) = row (m ((c : Thread nD τ).loc main_arg13)) := by
  rw [v53_at9]; funext j; exact shapeCast_a_1a_apply _ _ 0 j

theorem readout_at : W10 m ρ c (Proc.devRef .tc main_v54)
    = Cert.Spec.readout (C3 m c) (m ((c : Thread nD τ).loc main_arg10)) (row (m ((c : Thread nD τ).loc main_arg11))) (m ((c : Thread nD τ).loc main_arg12)) (row (m ((c : Thread nD τ).loc main_arg13))) := by
  rw [W10_v54, Cert.KernelIdeal.ReadoutRegion.readout_final (V9 m ρ) c, row52, row53, v51_at9, arg10_at9, arg12_at9]

/-! ## The result -/

/-- The kernel program's result is the network of its own irregular pieces. -/
theorem result_at : W11 m ρ c (Proc.devRef .tc main_v57)
    = Cert.Spec.network (embedded m c) (rows m c) (segsum m c) (pool m c) (m ((c : Thread nD τ).loc main_arg2)) (m ((c : Thread nD τ).loc main_arg5)) (row (m ((c : Thread nD τ).loc main_arg6)))
        (m ((c : Thread nD τ).loc main_arg7)) (row (m ((c : Thread nD τ).loc main_arg8))) (m ((c : Thread nD τ).loc main_arg9)) (m ((c : Thread nD τ).loc main_arg10)) (row (m ((c : Thread nD τ).loc main_arg11)))
        (m ((c : Thread nD τ).loc main_arg12)) (row (m ((c : Thread nD τ).loc main_arg13))) := by
  walk [readout_at m ρ c]; try rfl

end Cert.KernelIdeal.Walk

end
-- ==== Proof.RefDense.lean ====
/-
  The reference's dense stages are the same three functions.  Each is a statement about host operations only, generic in
  the operands: a `dot_general` against a transposed weight, read at (r, j), is the sum over the contraction of
  operand[r, k] · weight[j, k]; a bias broadcast twice ([n] → [1, n] → [rows, n]) read at (r, j) is bias[j]; the
  host's tanh is the extended reals' tanh.
-/
import proofs.«165084_j44195213476531_1_alg».proof.Proof.Gen.ReferenceIdeal.Read
import proofs.«165084_j44195213476531_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Dense

open Cert.ReferenceIdeal Cert.ReferenceIdeal.Gen Idealize.ShloMosaic Idealize.ShloMosaic.TcCoe Idealize.SL.Sem
open Idealize.ShloMosaic.ValueIdx

/-! ## A `dot_general` read at an index -/

/-- The edge-feature product: rows of 64 against a 128 × 64 weight, transposed.  Read at (p, q) the `dot_general` is the sum over the one
contracted axis of l[p, k] · r[k, q]: the contraction index set is `Fin 64`, and the operand indices have the coordinates
the four axis facts of the dimension numbers give. -/
theorem featDot_apply (l : FVec Ideal S640000x64 .f32) (r : FVec Ideal S64x128 .f32) (p : Fin 640000) (q : Fin 128) :
    Host.dotGeneral dot_S640000x64_S64x128_S640000x128_1_0_0_1_n_n none l r (ix2 p q) = ∑ k : Fin 64, l (ix2 p k) * r (ix2 k q) := by
  simp only [Host.dotGeneral]
  rw [Ideal.dotGeneral_apply, ← Equiv.sum_comp (contrEquiv1 dot_S640000x64_S64x128_S640000x128_1_0_0_1_n_n 64 rfl rfl).symm]
  refine Finset.sum_congr rfl fun k _ => ?_
  have hk := contrEquiv1_symm_val dot_S640000x64_S64x128_S640000x128_1_0_0_1_n_n 64 rfl rfl k
  have el : dot_S640000x64_S64x128_S640000x128_1_0_0_1_n_n.lhsIdx (ix2 p q) ((contrEquiv1 dot_S640000x64_S64x128_S640000x128_1_0_0_1_n_n 64 rfl rfl).symm k) = ix2 p k :=
    funext fun a => Fin.ext (by
      match a with
      | ⟨0, _⟩ => exact Read.lhs_main_v12_0 _ _
      | ⟨1, _⟩ => exact (Read.lhs_main_v12_1 _ _).trans hk)
  have er : dot_S640000x64_S64x128_S640000x128_1_0_0_1_n_n.rhsIdx (ix2 p q) ((contrEquiv1 dot_S640000x64_S64x128_S640000x128_1_0_0_1_n_n 64 rfl rfl).symm k) = ix2 k q :=
    funext fun a => Fin.ext (by
      match a with
      | ⟨0, _⟩ => exact (Read.rhs_main_v12_0 _ _).trans hk
      | ⟨1, _⟩ => exact Read.rhs_main_v12_1 _ _)
  rw [el, er]

/-- The same product against the weight as it is stored, [q, k]: the transpose swaps the two coordinates. -/
theorem featDotT_apply (l : FVec Ideal S640000x64 .f32) (w : FVec Ideal S128x64 .f32) (p : Fin 640000) (q : Fin 128) :
    Host.dotGeneral dot_S640000x64_S64x128_S640000x128_1_0_0_1_n_n none l (transpose S64x128 [1, 0] w transposes_S128x64_S64x128_1_0) (ix2 p q)
      = ∑ k : Fin 64, l (ix2 p k) * w (ix2 q k) := by
  rw [featDot_apply]
  exact Finset.sum_congr rfl fun k _ => congrArg (l (ix2 p k) * ·) (transpose_ix2_apply w transposes_S128x64_S64x128_1_0 k q)

/-- The two products of a message round: rows of 128 against a 128 × 128 weight, transposed.  Read at (p, q) the `dot_general` is the sum over the one
contracted axis of l[p, k] · r[k, q]: the contraction index set is `Fin 128`, and the operand indices have the coordinates
the four axis facts of the dimension numbers give. -/
theorem msgDot_apply (l : FVec Ideal S640000x128 .f32) (r : FVec Ideal S128x128 .f32) (p : Fin 640000) (q : Fin 128) :
    Host.dotGeneral dot_S640000x128_S128x128_S640000x128_1_0_0_1_n_n none l r (ix2 p q) = ∑ k : Fin 128, l (ix2 p k) * r (ix2 k q) := by
  simp only [Host.dotGeneral]
  rw [Ideal.dotGeneral_apply, ← Equiv.sum_comp (contrEquiv1 dot_S640000x128_S128x128_S640000x128_1_0_0_1_n_n 128 rfl rfl).symm]
  refine Finset.sum_congr rfl fun k _ => ?_
  have hk := contrEquiv1_symm_val dot_S640000x128_S128x128_S640000x128_1_0_0_1_n_n 128 rfl rfl k
  have el : dot_S640000x128_S128x128_S640000x128_1_0_0_1_n_n.lhsIdx (ix2 p q) ((contrEquiv1 dot_S640000x128_S128x128_S640000x128_1_0_0_1_n_n 128 rfl rfl).symm k) = ix2 p k :=
    funext fun a => Fin.ext (by
      match a with
      | ⟨0, _⟩ => exact Read.lhs_main_v24_0 _ _
      | ⟨1, _⟩ => exact (Read.lhs_main_v24_1 _ _).trans hk)
  have er : dot_S640000x128_S128x128_S640000x128_1_0_0_1_n_n.rhsIdx (ix2 p q) ((contrEquiv1 dot_S640000x128_S128x128_S640000x128_1_0_0_1_n_n 128 rfl rfl).symm k) = ix2 k q :=
    funext fun a => Fin.ext (by
      match a with
      | ⟨0, _⟩ => exact (Read.rhs_main_v24_0 _ _).trans hk
      | ⟨1, _⟩ => exact Read.rhs_main_v24_1 _ _)
  rw [el, er]

/-- The same product against the weight as it is stored, [q, k]: the transpose swaps the two coordinates. -/
theorem msgDotT_apply (l : FVec Ideal S640000x128 .f32) (w : FVec Ideal S128x128 .f32) (p : Fin 640000) (q : Fin 128) :
    Host.dotGeneral dot_S640000x128_S128x128_S640000x128_1_0_0_1_n_n none l (transpose S128x128 [1, 0] w transposes_S128x128_S128x128_1_0) (ix2 p q)
      = ∑ k : Fin 128, l (ix2 p k) * w (ix2 q k) := by
  rw [msgDot_apply]
  exact Finset.sum_congr rfl fun k _ => congrArg (l (ix2 p k) * ·) (transpose_ix2_apply w transposes_S128x128_S128x128_1_0 k q)

/-- The readout's hidden layer: rows of 128 against a 256 × 128 weight, transposed.  Read at (p, q) the `dot_general` is the sum over the one
contracted axis of l[p, k] · r[k, q]: the contraction index set is `Fin 128`, and the operand indices have the coordinates
the four axis facts of the dimension numbers give. -/
theorem hidDot_apply (l : FVec Ideal S20000x128 .f32) (r : FVec Ideal S128x256 .f32) (p : Fin 20000) (q : Fin 256) :
    Host.dotGeneral dot_S20000x128_S128x256_S20000x256_1_0_0_1_n_n none l r (ix2 p q) = ∑ k : Fin 128, l (ix2 p k) * r (ix2 k q) := by
  simp only [Host.dotGeneral]
  rw [Ideal.dotGeneral_apply, ← Equiv.sum_comp (contrEquiv1 dot_S20000x128_S128x256_S20000x256_1_0_0_1_n_n 128 rfl rfl).symm]
  refine Finset.sum_congr rfl fun k _ => ?_
  have hk := contrEquiv1_symm_val dot_S20000x128_S128x256_S20000x256_1_0_0_1_n_n 128 rfl rfl k
  have el : dot_S20000x128_S128x256_S20000x256_1_0_0_1_n_n.lhsIdx (ix2 p q) ((contrEquiv1 dot_S20000x128_S128x256_S20000x256_1_0_0_1_n_n 128 rfl rfl).symm k) = ix2 p k :=
    funext fun a => Fin.ext (by
      match a with
      | ⟨0, _⟩ => exact Read.lhs_main_v77_0 _ _
      | ⟨1, _⟩ => exact (Read.lhs_main_v77_1 _ _).trans hk)
  have er : dot_S20000x128_S128x256_S20000x256_1_0_0_1_n_n.rhsIdx (ix2 p q) ((contrEquiv1 dot_S20000x128_S128x256_S20000x256_1_0_0_1_n_n 128 rfl rfl).symm k) = ix2 k q :=
    funext fun a => Fin.ext (by
      match a with
      | ⟨0, _⟩ => exact (Read.rhs_main_v77_0 _ _).trans hk
      | ⟨1, _⟩ => exact Read.rhs_main_v77_1 _ _)
  rw [el, er]

/-- The same product against the weight as it is stored, [q, k]: the transpose swaps the two coordinates. -/
theorem hidDotT_apply (l : FVec Ideal S20000x128 .f32) (w : FVec Ideal S256x128 .f32) (p : Fin 20000) (q : Fin 256) :
    Host.dotGeneral dot_S20000x128_S128x256_S20000x256_1_0_0_1_n_n none l (transpose S128x256 [1, 0] w transposes_S256x128_S128x256_1_0) (ix2 p q)
      = ∑ k : Fin 128, l (ix2 p k) * w (ix2 q k) := by
  rw [hidDot_apply]
  exact Finset.sum_congr rfl fun k _ => congrArg (l (ix2 p k) * ·) (transpose_ix2_apply w transposes_S256x128_S128x256_1_0 k q)

/-- The readout's output layer: rows of 256 against a 4 × 256 weight, transposed.  Read at (p, q) the `dot_general` is the sum over the one
contracted axis of l[p, k] · r[k, q]: the contraction index set is `Fin 256`, and the operand indices have the coordinates
the four axis facts of the dimension numbers give. -/
theorem outDot_apply (l : FVec Ideal S20000x256 .f32) (r : FVec Ideal S256x4 .f32) (p : Fin 20000) (q : Fin 4) :
    Host.dotGeneral dot_S20000x256_S256x4_S20000x4_1_0_0_1_n_n none l r (ix2 p q) = ∑ k : Fin 256, l (ix2 p k) * r (ix2 k q) := by
  simp only [Host.dotGeneral]
  rw [Ideal.dotGeneral_apply, ← Equiv.sum_comp (contrEquiv1 dot_S20000x256_S256x4_S20000x4_1_0_0_1_n_n 256 rfl rfl).symm]
  refine Finset.sum_congr rfl fun k _ => ?_
  have hk := contrEquiv1_symm_val dot_S20000x256_S256x4_S20000x4_1_0_0_1_n_n 256 rfl rfl k
  have el : dot_S20000x256_S256x4_S20000x4_1_0_0_1_n_n.lhsIdx (ix2 p q) ((contrEquiv1 dot_S20000x256_S256x4_S20000x4_1_0_0_1_n_n 256 rfl rfl).symm k) = ix2 p k :=
    funext fun a => Fin.ext (by
      match a with
      | ⟨0, _⟩ => exact Read.lhs_main_v83_0 _ _
      | ⟨1, _⟩ => exact (Read.lhs_main_v83_1 _ _).trans hk)
  have er : dot_S20000x256_S256x4_S20000x4_1_0_0_1_n_n.rhsIdx (ix2 p q) ((contrEquiv1 dot_S20000x256_S256x4_S20000x4_1_0_0_1_n_n 256 rfl rfl).symm k) = ix2 k q :=
    funext fun a => Fin.ext (by
      match a with
      | ⟨0, _⟩ => exact (Read.rhs_main_v83_0 _ _).trans hk
      | ⟨1, _⟩ => exact Read.rhs_main_v83_1 _ _)
  rw [el, er]

/-- The same product against the weight as it is stored, [q, k]: the transpose swaps the two coordinates. -/
theorem outDotT_apply (l : FVec Ideal S20000x256 .f32) (w : FVec Ideal S4x256 .f32) (p : Fin 20000) (q : Fin 4) :
    Host.dotGeneral dot_S20000x256_S256x4_S20000x4_1_0_0_1_n_n none l (transpose S256x4 [1, 0] w transposes_S4x256_S256x4_1_0) (ix2 p q)
      = ∑ k : Fin 256, l (ix2 p k) * w (ix2 q k) := by
  rw [outDot_apply]
  exact Finset.sum_congr rfl fun k _ => congrArg (l (ix2 p k) * ·) (transpose_ix2_apply w transposes_S4x256_S256x4_1_0 k q)

/-! ## A bias broadcast twice, read at an index -/

/-- A bias of 128 entries broadcast to one row and then to 640000 rows reads, at (p, q), the bias at q: the row axis has
extent 1 in the middle array, so its coordinate is 0 whatever p is; the column axis keeps its coordinate. -/
theorem featBias_apply (b : FVec Ideal S128 .f32) (p : Fin 640000) (q : Fin 128) :
    broadcastInDim S640000x128 ![0, 1] bcast_S1x128_S640000x128_0_1 (broadcastInDim S1x128 ![1] bcast_S128_S1x128_1 b) (ix2 p q) = b (ix1 q) :=
  (broadcastInDim_apply _ bcast_S1x128_S640000x128_0_1 (broadcastInDim S1x128 ![1] bcast_S128_S1x128_1 b) (ix2 p q) (ix2 (0 : Fin 1) q)
    (fun a => match a with
      | ⟨0, _⟩ => by show 0 = if (1 : Nat) = 1 then 0 else p.val; rw [if_pos rfl]
      | ⟨1, _⟩ => by show q.val = if (128 : Nat) = 1 then 0 else q.val; rw [if_neg (by decide)])).trans
  (broadcastInDim_apply _ bcast_S128_S1x128_1 b (ix2 (0 : Fin 1) q) (ix1 q)
    (fun a => match a with
      | ⟨0, _⟩ => by show q.val = if (128 : Nat) = 1 then 0 else q.val; rw [if_neg (by decide)]))

/-- A bias of 256 entries broadcast to one row and then to 20000 rows reads, at (p, q), the bias at q: the row axis has
extent 1 in the middle array, so its coordinate is 0 whatever p is; the column axis keeps its coordinate. -/
theorem hidBias_apply (b : FVec Ideal S256 .f32) (p : Fin 20000) (q : Fin 256) :
    broadcastInDim S20000x256 ![0, 1] bcast_S1x256_S20000x256_0_1 (broadcastInDim S1x256 ![1] bcast_S256_S1x256_1 b) (ix2 p q) = b (ix1 q) :=
  (broadcastInDim_apply _ bcast_S1x256_S20000x256_0_1 (broadcastInDim S1x256 ![1] bcast_S256_S1x256_1 b) (ix2 p q) (ix2 (0 : Fin 1) q)
    (fun a => match a with
      | ⟨0, _⟩ => by show 0 = if (1 : Nat) = 1 then 0 else p.val; rw [if_pos rfl]
      | ⟨1, _⟩ => by show q.val = if (256 : Nat) = 1 then 0 else q.val; rw [if_neg (by decide)])).trans
  (broadcastInDim_apply _ bcast_S256_S1x256_1 b (ix2 (0 : Fin 1) q) (ix1 q)
    (fun a => match a with
      | ⟨0, _⟩ => by show q.val = if (256 : Nat) = 1 then 0 else q.val; rw [if_neg (by decide)]))

/-- A bias of 4 entries broadcast to one row and then to 20000 rows reads, at (p, q), the bias at q: the row axis has
extent 1 in the middle array, so its coordinate is 0 whatever p is; the column axis keeps its coordinate. -/
theorem outBias_apply (b : FVec Ideal S4 .f32) (p : Fin 20000) (q : Fin 4) :
    broadcastInDim S20000x4 ![0, 1] bcast_S1x4_S20000x4_0_1 (broadcastInDim S1x4 ![1] bcast_S4_S1x4_1 b) (ix2 p q) = b (ix1 q) :=
  (broadcastInDim_apply _ bcast_S1x4_S20000x4_0_1 (broadcastInDim S1x4 ![1] bcast_S4_S1x4_1 b) (ix2 p q) (ix2 (0 : Fin 1) q)
    (fun a => match a with
      | ⟨0, _⟩ => by show 0 = if (1 : Nat) = 1 then 0 else p.val; rw [if_pos rfl]
      | ⟨1, _⟩ => by show q.val = if (4 : Nat) = 1 then 0 else q.val; rw [if_neg (by decide)])).trans
  (broadcastInDim_apply _ bcast_S4_S1x4_1 b (ix2 (0 : Fin 1) q) (ix1 q)
    (fun a => match a with
      | ⟨0, _⟩ => by show q.val = if (4 : Nat) = 1 then 0 else q.val; rw [if_neg (by decide)]))

/-! ## The three stages -/

/-- The reference's edge features: `attr · dfWᵀ + dfb`. -/
theorem feat_ref (x2 : FVec Ideal S640000x64 .f32) (x7 : FVec Ideal S128x64 .f32) (x8 : FVec Ideal S128 .f32) :
    addf (Host.dotGeneral dot_S640000x64_S64x128_S640000x128_1_0_0_1_n_n none x2 (transpose S64x128 [1, 0] x7 transposes_S128x64_S64x128_1_0))
      (broadcastInDim S640000x128 ![0, 1] bcast_S1x128_S640000x128_0_1 (broadcastInDim S1x128 ![1] bcast_S128_S1x128_1 x8))
    = Cert.Spec.edgeFeat x2 x7 (fun j => x8 (ix1 j)) := by
  funext i
  obtain ⟨a, b, rfl⟩ : ∃ a b, i = ix2 a b := ⟨i 0, i 1, eq_ix2 i⟩
  rw [addf_apply, featDotT_apply, featBias_apply]
  rfl

/-- The reference's messages of one round: `tanh (((c · cfWᵀ + cfb) ∗ d) · fcWᵀ)`. -/
theorem msg_ref (c d : FVec Ideal S640000x128 .f32) (x5 x9 : FVec Ideal S128x128 .f32) (x6 : FVec Ideal S128 .f32) :
    Host.tanh (Host.dotGeneral dot_S640000x128_S128x128_S640000x128_1_0_0_1_n_n none
      (mulf (addf (Host.dotGeneral dot_S640000x128_S128x128_S640000x128_1_0_0_1_n_n none c (transpose S128x128 [1, 0] x5 transposes_S128x128_S128x128_1_0))
        (broadcastInDim S640000x128 ![0, 1] bcast_S1x128_S640000x128_0_1 (broadcastInDim S1x128 ![1] bcast_S128_S1x128_1 x6))) d)
      (transpose S128x128 [1, 0] x9 transposes_S128x128_S128x128_1_0))
    = Cert.Spec.edgeMsg c d x5 (fun j => x6 (ix1 j)) x9 := by
  funext i
  obtain ⟨a, b, rfl⟩ : ∃ a b, i = ix2 a b := ⟨i 0, i 1, eq_ix2 i⟩
  show Ideal.tanh _ = Ideal.tanh _
  refine congrArg Ideal.tanh ?_
  rw [msgDotT_apply]
  refine Finset.sum_congr rfl fun k _ => ?_
  rw [mulf_apply, addf_apply, msgDotT_apply, featBias_apply]
  rfl

/-- The reference's readout: `tanh (C · r1Wᵀ + r1b) · r2Wᵀ + r2b`. -/
theorem readout_ref (C : FVec Ideal S20000x128 .f32) (x10 : FVec Ideal S256x128 .f32) (x11 : FVec Ideal S256 .f32)
    (x12 : FVec Ideal S4x256 .f32) (x13 : FVec Ideal S4 .f32) :
    addf (Host.dotGeneral dot_S20000x256_S256x4_S20000x4_1_0_0_1_n_n none
      (Host.tanh (addf (Host.dotGeneral dot_S20000x128_S128x256_S20000x256_1_0_0_1_n_n none C (transpose S128x256 [1, 0] x10 transposes_S256x128_S128x256_1_0))
        (broadcastInDim S20000x256 ![0, 1] bcast_S1x256_S20000x256_0_1 (broadcastInDim S1x256 ![1] bcast_S256_S1x256_1 x11))))
      (transpose S256x4 [1, 0] x12 transposes_S4x256_S256x4_1_0))
      (broadcastInDim S20000x4 ![0, 1] bcast_S1x4_S20000x4_0_1 (broadcastInDim S1x4 ![1] bcast_S4_S1x4_1 x13))
    = Cert.Spec.readout C x10 (fun j => x11 (ix1 j)) x12 (fun j => x13 (ix1 j)) := by
  funext i
  obtain ⟨a, b, rfl⟩ : ∃ a b, i = ix2 a b := ⟨i 0, i 1, eq_ix2 i⟩
  rw [addf_apply, outDotT_apply, outBias_apply]
  refine congrArg (· + x13 (ix1 b)) (Finset.sum_congr rfl fun k _ => ?_)
  refine congrArg (· * x12 (ix2 b k)) ?_
  show Ideal.tanh _ = Ideal.tanh _
  refine congrArg Ideal.tanh ?_
  rw [addf_apply, hidDotT_apply, hidBias_apply]

end Cert.ReferenceIdeal.Dense

end
-- ==== Proof.RefModel.lean ====
/-
  The reference computes the network of Spec.lean.  Its irregular pieces — the embedded nodes, the rows an edge reads,
  the segment sum over destination nodes, the pooling over graphs — are taken as the reference applies them and never
  opened; its dense stages are the three functions of Spec.lean (RefDense.lean).  The reference recomputes the source
  index column, the destination column and the zero array in every round: those are the same terms each time.
-/
import proofs.«165084_j44195213476531_1_alg».proof.Proof.Gen.ReferenceIdeal.Read
import proofs.«165084_j44195213476531_1_alg».proof.Proof.Spec
import proofs.«165084_j44195213476531_1_alg».proof.Proof.RefDense

noncomputable section

namespace Cert.ReferenceIdeal.Model

open Cert.ReferenceIdeal Cert.ReferenceIdeal.Gen Cert.ReferenceIdeal.Read Cert.ReferenceIdeal.Dense
open Idealize.ShloMosaic Idealize.ShloMosaic.TcCoe Idealize.SL.Sem Idealize.ShloMosaic.ValueIdx

variable (x0 : (⟨S20000, .i32⟩ : BufTy).Contents (Elt Ideal)) (x1 : (⟨S2x640000, .i32⟩ : BufTy).Contents (Elt Ideal))
  (x2 : (⟨S640000x64, .f32⟩ : BufTy).Contents (Elt Ideal)) (x3 : (⟨S20000, .i32⟩ : BufTy).Contents (Elt Ideal))
  (x4 : (⟨S101x128, .f32⟩ : BufTy).Contents (Elt Ideal)) (x5 : (⟨S128x128, .f32⟩ : BufTy).Contents (Elt Ideal))
  (x6 : (⟨S128, .f32⟩ : BufTy).Contents (Elt Ideal)) (x7 : (⟨S128x64, .f32⟩ : BufTy).Contents (Elt Ideal))
  (x8 : (⟨S128, .f32⟩ : BufTy).Contents (Elt Ideal)) (x9 : (⟨S128x128, .f32⟩ : BufTy).Contents (Elt Ideal))
  (x10 : (⟨S256x128, .f32⟩ : BufTy).Contents (Elt Ideal)) (x11 : (⟨S256, .f32⟩ : BufTy).Contents (Elt Ideal))
  (x12 : (⟨S4x256, .f32⟩ : BufTy).Contents (Elt Ideal)) (x13 : (⟨S4, .f32⟩ : BufTy).Contents (Elt Ideal))

/-! ## The irregular pieces, as the reference applies them -/

/-- The embedded nodes: node n takes the table's row Z[n]. -/
def embedded : FVec Ideal S20000x128 .f32 := val_main_v6 x0 x4
/-- The rows the edges read: edge e takes row src[e] of the node features. -/
def rows (C : FVec Ideal S20000x128 .f32) : FVec Ideal S640000x128 .f32 :=
  Host.gather gather_S20000x128_S640000x1_S640000x128_1_0_n_n_0_1_1128 C (val_main_v21 x1)
/-- The segment sum: node n receives the messages of the edges e with dst[e] = n. -/
def segsum (M : FVec Ideal S640000x128 .f32) : FVec Ideal S20000x128 .f32 :=
  Host.scatterAdd scatter_S20000x128_S640000x1_S640000x128_1_0_0_1 (val_main_v32 (F := Ideal)) (val_main_v33 x1) M
/-- The pooling: graph g receives the readouts of its nodes. -/
def pool (h : FVec Ideal S20000x4 .f32) : FVec Ideal S256x4 .f32 :=
  Host.scatterAdd scatter_S256x4_S20000x1_S20000x4_1_0_0_1 (val_main_v87 (F := Ideal)) (val_main_v88 x3) h

/-- A bias as a row. -/
abbrev row {n : Nat} (b : FVec Ideal ⟨1, ![n]⟩ .f32) : Fin n → EReal := fun j => b (ix1 j)

/-! ## The index columns and the zero arrays of the later rounds are those of the first -/

theorem src2 : val_main_v41 (F := Ideal) x1 = val_main_v21 x1 := rfl
theorem src3 : val_main_v61 (F := Ideal) x1 = val_main_v21 x1 := rfl
theorem dst2 : val_main_v53 (F := Ideal) x1 = val_main_v33 x1 := rfl
theorem dst3 : val_main_v73 (F := Ideal) x1 = val_main_v33 x1 := rfl
theorem zero2 : val_main_v52 (F := Ideal) = val_main_v32 := rfl
theorem zero3 : val_main_v72 (F := Ideal) = val_main_v32 := rfl

/-! ## The stages -/

/-- The edge features. -/
abbrev D : FVec Ideal S640000x128 .f32 := Cert.Spec.edgeFeat x2 x7 (row x8)

theorem feat_stage : val_main_v15 x2 x7 x8 = D x2 x7 x8 := by
  unfold val_main_v15 val_main_v12 val_main_v14 val_main_v13 val_main_v11
  exact feat_ref x2 x7 x8

/-- The node features after one, two, three rounds. -/
abbrev C1 : FVec Ideal S20000x128 .f32 :=
  Cert.Spec.round (rows x1) (segsum x1) (D x2 x7 x8) x5 (row x6) x9 (embedded x0 x4)
abbrev C2 : FVec Ideal S20000x128 .f32 :=
  Cert.Spec.round (rows x1) (segsum x1) (D x2 x7 x8) x5 (row x6) x9 (C1 x0 x1 x2 x4 x5 x6 x7 x8 x9)
abbrev C3 : FVec Ideal S20000x128 .f32 :=
  Cert.Spec.round (rows x1) (segsum x1) (D x2 x7 x8) x5 (row x6) x9 (C2 x0 x1 x2 x4 x5 x6 x7 x8 x9)

theorem msg1_stage : val_main_v31 x0 x1 x2 x4 x5 x6 x7 x8 x9 = Cert.Spec.edgeMsg (rows x1 (embedded x0 x4)) (D x2 x7 x8) x5 (row x6) x9 := by
  unfold val_main_v31 val_main_v30 val_main_v28 val_main_v27 val_main_v24 val_main_v26 val_main_v25 val_main_v23 val_main_v29 val_main_v22
  rw [feat_stage]
  exact msg_ref _ _ _ _ _

theorem round1_stage : val_main_v35 x0 x1 x2 x4 x5 x6 x7 x8 x9 = C1 x0 x1 x2 x4 x5 x6 x7 x8 x9 := by
  unfold val_main_v35 val_main_v34
  rw [msg1_stage]
  rfl

theorem msg2_stage : val_main_v51 x0 x1 x2 x4 x5 x6 x7 x8 x9 = Cert.Spec.edgeMsg (rows x1 (C1 x0 x1 x2 x4 x5 x6 x7 x8 x9)) (D x2 x7 x8) x5 (row x6) x9 := by
  unfold val_main_v51 val_main_v50 val_main_v48 val_main_v47 val_main_v44 val_main_v46 val_main_v45 val_main_v43 val_main_v49 val_main_v42
  rw [feat_stage, round1_stage, src2]
  exact msg_ref _ _ _ _ _

theorem round2_stage : val_main_v55 x0 x1 x2 x4 x5 x6 x7 x8 x9 = C2 x0 x1 x2 x4 x5 x6 x7 x8 x9 := by
  unfold val_main_v55 val_main_v54
  rw [msg2_stage, round1_stage, dst2, zero2]
  rfl

theorem msg3_stage : val_main_v71 x0 x1 x2 x4 x5 x6 x7 x8 x9 = Cert.Spec.edgeMsg (rows x1 (C2 x0 x1 x2 x4 x5 x6 x7 x8 x9)) (D x2 x7 x8) x5 (row x6) x9 := by
  unfold val_main_v71 val_main_v70 val_main_v68 val_main_v67 val_main_v64 val_main_v66 val_main_v65 val_main_v63 val_main_v69 val_main_v62
  rw [feat_stage, round2_stage, src3]
  exact msg_ref _ _ _ _ _

theorem round3_stage : val_main_v75 x0 x1 x2 x4 x5 x6 x7 x8 x9 = C3 x0 x1 x2 x4 x5 x6 x7 x8 x9 := by
  unfold val_main_v75 val_main_v74
  rw [msg3_stage, round2_stage, dst3, zero3]
  rfl

theorem readout_stage : val_main_v86 x0 x1 x2 x4 x5 x6 x7 x8 x9 x10 x11 x12 x13
    = Cert.Spec.readout (C3 x0 x1 x2 x4 x5 x6 x7 x8 x9) x10 (row x11) x12 (row x13) := by
  unfold val_main_v86 val_main_v83 val_main_v85 val_main_v84 val_main_v82 val_main_v81 val_main_v80 val_main_v77 val_main_v79 val_main_v78 val_main_v76
  rw [round3_stage]
  exact readout_ref _ _ _ _ _

/-- The reference's result is the network of its own irregular pieces. -/
theorem result_stage : val_main_v89 x0 x1 x2 x3 x4 x5 x6 x7 x8 x9 x10 x11 x12 x13
    = Cert.Spec.network (embedded x0 x4) (rows x1) (segsum x1) (pool x3) x2 x5 (row x6) x7 (row x8) x9 x10 (row x11) x12 (row x13) := by
  unfold val_main_v89
  rw [readout_stage]
  rfl

end Cert.ReferenceIdeal.Model

end
-- ==== Proof.lean ====
/-
  The certificate: a message-passing network over a graph (20000 nodes, 640000 edges, 128 features per node) as a
  kernel program of five kernel regions among host operations, against its plain reference, over the extended reals.

  Both programs compute the network of Proof/Spec.lean: the edge features D = attr · dfWᵀ + dfb; three rounds
  C ↦ C + segsum (tanh (((rows C · cfWᵀ + cfb) ∗ D) · fcWᵀ)) from the embedded nodes; the readout
  tanh (C · r1Wᵀ + r1b) · r2Wᵀ + r2b; the pooling over graphs.  The kernel program computes the three dense pieces in
  kernel regions, block of rows by block of rows (its casts to a narrower float format are the identity on the extended
  reals; each contraction lies whole inside a block, so a block's row is the whole product's row and the blocks tile
  the rows: Proof/FeatRegion.lean, MsgRegion.lean, ReadoutRegion.lean), the reference as whole-array products
  (Proof/RefDense.lean).  The irregular pieces — which embedding row a node takes, which node an edge reads, the segment
  sums — are the same host operations of the same integer inputs in both programs, and are never opened
  (`embedded_eq`, `rows_eq`, `segsum_eq`, `pool_eq` below).  No sum is regrouped, so no law of the extended reals
  that needs finiteness is used: the precondition is never opened.
  The kernel program's result array is read back through @main in Proof/KernelWalk.lean, over the run of
  Proof/NamedRun.lean; the reference's in Proof/RefModel.lean, over its generated run.  The idealization rewrote
  nothing, so `preserves` is trivial; the frames are the generated ones.
-/
import proofs.«165084_j44195213476531_1_alg».proof.Defs
import proofs.«165084_j44195213476531_1_alg».proof.Proof.Gen.Kernel
import proofs.«165084_j44195213476531_1_alg».proof.Proof.Gen.Kernel.Skeleton
import proofs.«165084_j44195213476531_1_alg».proof.Proof.Gen.Kernel.Launch
import proofs.«165084_j44195213476531_1_alg».proof.Proof.Gen.Kernel.Points
import proofs.«165084_j44195213476531_1_alg».proof.Proof.Gen.Kernel.Frame
import proofs.«165084_j44195213476531_1_alg».proof.Proof.Gen.KernelIdeal
import proofs.«165084_j44195213476531_1_alg».proof.Proof.Gen.KernelIdeal.Skeleton
import proofs.«165084_j44195213476531_1_alg».proof.Proof.Gen.KernelIdeal.Launch
import proofs.«165084_j44195213476531_1_alg».proof.Proof.Gen.KernelIdeal.Points
import proofs.«165084_j44195213476531_1_alg».proof.Proof.Gen.KernelIdeal.Frame
import proofs.«165084_j44195213476531_1_alg».proof.Proof.Gen.ReferenceIdeal
import proofs.«165084_j44195213476531_1_alg».proof.Proof.Gen.ReferenceIdeal.Run
import proofs.«165084_j44195213476531_1_alg».proof.Proof.Gen.ReferenceIdeal.Read
import proofs.«165084_j44195213476531_1_alg».proof.Proof.Gen.Pre_finite_inputs
import proofs.«165084_j44195213476531_1_alg».proof.Proof.NamedRun
import proofs.«165084_j44195213476531_1_alg».proof.Proof.KernelWalk
import proofs.«165084_j44195213476531_1_alg».proof.Proof.RefModel
import Idealize.ShloMosaic.Adequacy
import Idealize.ShloMosaic.Init

noncomputable section

namespace Cert.Proof

open Idealize.ShloMosaic Idealize.ShloMosaic.TcCoe Idealize.SL.Sem

/-! ## The frames and the idealization -/

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)
/-- The idealization rewrote no operation. -/
theorem preserves : Cert.preserves_Kernel_KernelIdeal := trivial

/-! ## The two programs' irregular pieces are the same functions of the same integer inputs -/

section Pieces

variable (m : (ℓ : Loc Cert.KernelIdeal.nD Cert.KernelIdeal.τ Cert.KernelIdeal.sig) → Buf (Elt Ideal) ℓ) (c : Dev Cert.KernelIdeal.nD)

theorem embedded_eq : Cert.KernelIdeal.Walk.embedded m c = Cert.ReferenceIdeal.Model.embedded (m ((c.tc : Thread Cert.KernelIdeal.nD Cert.KernelIdeal.τ).loc Cert.KernelIdeal.main_arg0)) (m ((c.tc : Thread Cert.KernelIdeal.nD Cert.KernelIdeal.τ).loc Cert.KernelIdeal.main_arg4)) := rfl
theorem rows_eq : Cert.KernelIdeal.Walk.rows m c = Cert.ReferenceIdeal.Model.rows (m ((c.tc : Thread Cert.KernelIdeal.nD Cert.KernelIdeal.τ).loc Cert.KernelIdeal.main_arg1)) := rfl
theorem segsum_eq : Cert.KernelIdeal.Walk.segsum m c = Cert.ReferenceIdeal.Model.segsum (m ((c.tc : Thread Cert.KernelIdeal.nD Cert.KernelIdeal.τ).loc Cert.KernelIdeal.main_arg1)) := rfl
theorem pool_eq : Cert.KernelIdeal.Walk.pool m c = Cert.ReferenceIdeal.Model.pool (m ((c.tc : Thread Cert.KernelIdeal.nD Cert.KernelIdeal.τ).loc Cert.KernelIdeal.main_arg3)) := rfl

end Pieces

/-! ## The value claim -/

/-- Run from memories that agree on the arguments, both programs end with the network of Spec.lean in their result array:
    the kernel program's, read back through @main, over its own irregular pieces; the reference's over its own; and
    those pieces are the same functions. -/
theorem algebraic : Cert.algebraic_KernelIdeal_ReferenceIdeal := by
  intro m ρ m' ρ' _ hagree
  refine ⟨fun c => Cert.KernelIdeal.Gen.W11 m ρ c (Proc.devRef .tc Cert.KernelIdeal.main_v57),
    Cert.KernelIdeal.Gen.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  show Cert.ReferenceIdeal.Value.res_main_v89 m' c = Cert.KernelIdeal.Gen.W11 m ρ c (Proc.devRef .tc Cert.KernelIdeal.main_v57)
  rw [Cert.ReferenceIdeal.Read.val_main_v89_eq, Cert.ReferenceIdeal.Model.result_stage,
    h0, h1, h2, h3, h4, h5, h6, h7, h8, h9, h10, h11, h12, h13,
    Cert.KernelIdeal.Walk.result_at, embedded_eq, rows_eq, segsum_eq, pool_eq]

/-! ## The claim -/

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
